-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S500000 : Shape := ⟨1, ![500000]⟩
abbrev S64x64 : Shape := ⟨2, ![64, 64]⟩
abbrev S64 : Shape := ⟨1, ![64]⟩
abbrev S192x64 : Shape := ⟨2, ![192, 64]⟩
abbrev S64x2 : Shape := ⟨2, ![64, 2]⟩
abbrev S2 : Shape := ⟨1, ![2]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S192x64 : S_.BroadcastsInDim S192x64 (![] : Fin 0 → Fin S192x64.rank)
  reducesTo_S192x64_S_d0_1 : S192x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  main_v53

def fn_part2 {F : FTy → Type} [FloatOps F] (main_arg11 : FVec F S192x64 .f32) (main_arg12 : FVec F S64 .f32) (main_arg13 : FVec F S64x2 .f32) (main_arg14 : FVec F S2 .f32) (main_v33 : IVec S_ 1) : IVec S_ 1 :=
  let main_v34 : FVec F S192x64 .f32 := Host.absf main_arg11
  let main_cst_12 : FVec F S_ .f32 := constant S_ .f32 0x7F800000#32
  let main_v35 : FVec F S192x64 .f32 := broadcastInDim S192x64 ![] bcast_S_S192x64 main_cst_12
  let main_v36 : IVec S192x64 1 := cmpf .olt main_v34 main_v35
  let main_c_13 : IVec S_ 1 := constantI S_ 1 1#1
  let main_v37 : IVec S_ 1 := (fun x v => Host.reduce IntOp.andi x v reducesTo_S192x64_S_d0_1 h_S_) main_v36 main_c_13
  let main_v38 : IVec S_ 1 := andi main_v33 main_v37
  let main_v39 : FVec F S64 .f32 := Host.absf main_arg12
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x2 .f32 := Host.absf main_arg13
  let main_cst_16 : FVec F S_ .f32 := constant S_ .f32 0x7F800000#32
  let main_v45 : FVec F S64x2 .f32 := broadcastInDim S64x2 ![] bcast_S_S64x2 main_cst_16
  let main_v46 : IVec S64x2 1 := cmpf .olt main_v44 main_v45
  let main_c_17 : IVec S_ 1 := constantI S_ 1 1#1
  let main_v47 : IVec S_ 1 := (fun x v => Host.reduce IntOp.andi x v reducesTo_S64x2_S_d0_1 h_S_) main_v46 main_c_17
  let main_v48 : IVec S_ 1 := andi main_v43 main_v47
  let main_v49 : FVec F S2 .f32 := Host.absf main_arg14
  let main_cst_18 : FVec F S_ .f32 := constant S_ .f32 0x7F800000#32
  let main_v50 : FVec F S2 .f32 := broadcastInDim S2 ![] bcast_S_S2 main_cst_18
  fn_part3 (F := F) main_v48 main_v49 main_v50

def fn_part1 {F : FTy → Type} [FloatOps F] (main_arg8 : FVec F S64x64 .f32) (main_arg9 : FVec F S64x64 .f32) (main_arg10 : FVec F S64 .f32) (main_arg11 : FVec F S192x64 .f32) (main_arg12 : FVec F S64 .f32) (main_arg13 : FVec F S64x2 .f32) (main_arg14 : FVec F S2 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg8
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg9
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg10
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg11 main_arg12 main_arg13 main_arg14 main_v33

def fn {F : FTy → Type} [FloatOps F] (main_arg0 : FVec F S100000x64 .f32) (main_arg1 : IVec S1600000 32) (main_arg2 : IVec S1600000 32) (main_arg3 : IVec S500000 32) (main_arg4 : IVec S500000 32) (main_arg5 : FVec F S64x64 .f32) (main_arg6 : FVec F S64x64 .f32) (main_arg7 : FVec F S64 .f32) (main_arg8 : FVec F S64x64 .f32) (main_arg9 : FVec F S64x64 .f32) (main_arg10 : FVec F S64 .f32) (main_arg11 : FVec F S192x64 .f32) (main_arg12 : FVec F S64 .f32) (main_arg13 : FVec F S64x2 .f32) (main_arg14 : FVec F S2 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg5
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg6
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg7
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg8 main_arg9 main_arg10 main_arg11 main_arg12 main_arg13 main_arg14 main_v13 main_v16
-- ==== Kernel.lean ====
abbrev S100000x64 : Shape := ⟨2, ![100000, 64]⟩
abbrev S1600000 : Shape := ⟨1, ![1600000]⟩
abbrev S500000 : Shape := ⟨1, ![500000]⟩
abbrev S64x64 : Shape := ⟨2, ![64, 64]⟩
abbrev S64 : Shape := ⟨1, ![64]⟩
abbrev S192x64 : Shape := ⟨2, ![192, 64]⟩
abbrev S64x2 : Shape := ⟨2, ![64, 2]⟩
abbrev S2 : Shape := ⟨1, ![2]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S5000x64 : Shape := ⟨2, ![5000, 64]⟩
abbrev S1x64 : Shape := ⟨2, ![1, 64]⟩
abbrev S500000x1 : Shape := ⟨2, ![500000, 1]⟩
abbrev S500000x64 : Shape := ⟨2, ![500000, 64]⟩
abbrev S500000x2 : Shape := ⟨2, ![500000, 2]⟩
abbrev S10000x64 : Shape := ⟨2, ![10000, 64]⟩
abbrev S10000x2 : Shape := ⟨2, ![10000, 2]⟩
abbrev S1x2 : Shape := ⟨2, ![1, 2]⟩

abbrev nBuf : Space → Nat
  | .hbm => 79
  | .vmem => 30
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S500000, .i32⟩
  | .hbm, ⟨4, _⟩ => ⟨S500000, .i32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64x64, .f32⟩
  | .hbm, ⟨10, _⟩ => ⟨S64, .f32⟩
  | .hbm, ⟨11, _⟩ => ⟨S192x64, .f32⟩
  | .hbm, ⟨12, _⟩ => ⟨S64, .f32⟩
  | .hbm, ⟨13, _⟩ => ⟨S64x2, .f32⟩
  | .hbm, ⟨14, _⟩ => ⟨S2, .f32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x64, .f32⟩
  | .hbm, ⟨34, _⟩ => ⟨S_, .f32⟩
  | .hbm, ⟨35, _⟩ => ⟨S100000x64, .f32⟩
  | .hbm, ⟨36, _⟩ => ⟨S1600000x1, .i32⟩
  | .hbm, ⟨37, _⟩ => ⟨S100000x64, .f32⟩
  | .hbm, ⟨38, _⟩ => ⟨S100000x64, .f32⟩
  | .hbm, ⟨39, _⟩ => ⟨S100000x64, .f32⟩
  | .hbm, ⟨40, _⟩ => ⟨S100000x64, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x64, .f32⟩
  | .hbm, ⟨50, _⟩ => ⟨S_, .f32⟩
  | .hbm, ⟨51, _⟩ => ⟨S100000x64, .f32⟩
  | .hbm, ⟨52, _⟩ => ⟨S1600000x1, .i32⟩
  | .hbm, ⟨53, _⟩ => ⟨S100000x64, .f32⟩
  | .hbm, ⟨54, _⟩ => ⟨S100000x64, .f32⟩
  | .hbm, ⟨55, _⟩ => ⟨S100000x64, .f32⟩
  | .hbm, ⟨56, _⟩ => ⟨S100000x64, .f32⟩
  | .hbm, ⟨57, _⟩ => ⟨S_, .i32⟩
  | .hbm, ⟨58, _⟩ => ⟨S500000, .i32⟩
  | .hbm, ⟨59, _⟩ => ⟨S500000, .i1⟩
  | .hbm, ⟨60, _⟩ => ⟨S_, .i32⟩
  | .hbm, ⟨61, _⟩ => ⟨S500000, .i32⟩
  | .hbm, ⟨62, _⟩ => ⟨S500000, .i32⟩
  | .hbm, ⟨63, _⟩ => ⟨S500000, .i32⟩
  | .hbm, ⟨64, _⟩ => ⟨S500000x1, .i32⟩
  | .hbm, ⟨65, _⟩ => ⟨S500000x64, .f32⟩
  | .hbm, ⟨66, _⟩ => ⟨S_, .i32⟩
  | .hbm, ⟨67, _⟩ => ⟨S500000, .i32⟩
  | .hbm, ⟨68, _⟩ => ⟨S500000, .i1⟩
  | .hbm, ⟨69, _⟩ => ⟨S_, .i32⟩
  | .hbm, ⟨70, _⟩ => ⟨S500000, .i32⟩
  | .hbm, ⟨71, _⟩ => ⟨S500000, .i32⟩
  | .hbm, ⟨72, _⟩ => ⟨S500000, .i32⟩
  | .hbm, ⟨73, _⟩ => ⟨S500000x1, .i32⟩
  | .hbm, ⟨74, _⟩ => ⟨S500000x64, .f32⟩
  | .hbm, ⟨75, _⟩ => ⟨S64x64, .f32⟩
  | .hbm, ⟨76, _⟩ => ⟨S64x64, .f32⟩
  | .hbm, ⟨77, _⟩ => ⟨S64x64, .f32⟩
  | .hbm, ⟨78, _⟩ => ⟨S500000x2, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64x64, .f32⟩
  | .local _ .vmem, ⟨6, _⟩ => ⟨S64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S64x64, .f32⟩
  | .local _ .vmem, ⟨15, _⟩ => ⟨S64, .f32⟩
  | .local _ .vmem, ⟨16, _⟩ => ⟨S5000x64, .f32⟩
  | .local _ .vmem, ⟨17, _⟩ => ⟨S5000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x64, .f32⟩
  | .local _ .vmem, ⟨23, _⟩ => ⟨S64x64, .f32⟩
  | .local _ .vmem, ⟨24, _⟩ => ⟨S64x64, .f32⟩
  | .local _ .vmem, ⟨25, _⟩ => ⟨S64, .f32⟩
  | .local _ .vmem, ⟨26, _⟩ => ⟨S64x2, .f32⟩
  | .local _ .vmem, ⟨27, _⟩ => ⟨S2, .f32⟩
  | .local _ .vmem, ⟨28, _⟩ => ⟨S10000x2, .f32⟩
  | .local _ .vmem, ⟨29, _⟩ => ⟨S10000x2, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst_1 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c : Ref sig .tc := ⟨.hbm, 25, rfl⟩
abbrev main_v7 : Ref sig .tc := ⟨.hbm, 26, rfl⟩
abbrev main_v8 : Ref sig .tc := ⟨.hbm, 27, rfl⟩
abbrev main_c_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_3 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_c_4 : Ref sig .tc := ⟨.hbm, 41, rfl⟩
abbrev main_v20 : Ref sig .tc := ⟨.hbm, 42, rfl⟩
abbrev main_v21 : Ref sig .tc := ⟨.hbm, 43, rfl⟩
abbrev main_c_5 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_6 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_c_8 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_c_9 : Ref sig .tc := ⟨.hbm, 66, rfl⟩
abbrev main_v40 : Ref sig .tc := ⟨.hbm, 67, rfl⟩
abbrev main_v41 : Ref sig .tc := ⟨.hbm, 68, rfl⟩
abbrev main_c_10 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg8_0 : Ref sig .tc := ⟨.vmem, 28, rfl⟩
abbrev cc2_stg8_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem8_0 : DmaSem sig := 28
abbrev cc2_sem8_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x2 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S2 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S10000x2 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  bcast_S_S500000 : S_.BroadcastsInDim S500000 (![] : Fin 0 → Fin S500000.rank)
  bcast_S500000_S500000x1_0 : S500000.BroadcastsInDim S500000x1 (![0] : Fin 1 → Fin S500000x1.rank)
  slices_S192x64_S64x64_0_0 : S192x64.Slices ![0, 0] S64x64
  slices_S192x64_S64x64_64_0 : S192x64.Slices ![64, 0] S64x64
  slices_S192x64_S64x64_128_0 : S192x64.Slices ![128, 0] S64x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  shapeCasts_S64x64_S64x64 : S64x64.ShapeCasts S64x64
  broadcasts_S1x64_S10000x64 : S1x64.Broadcasts S10000x64
  inb_S64x2_S64x2_0_0 : ∀ a, (![0, 0] : Fin 2 → Nat) a + S64x2.size a ≤ S64x2.size a
  h_S64x2 : 0 < S64x2.numel
  inb_S2_S2_0 : ∀ a, (![0] : Fin 1 → Nat) a + S2.size a ≤ S2.size a
  h_S2 : 0 < S2.numel
  shapeCasts_S2_S1x2 : S2.ShapeCasts S1x2
  broadcasts_S1x2_S10000x2 : S1x2.Broadcasts S10000x2
  inb_S10000x2_S10000x2_0_0 : ∀ a, (![0, 0] : Fin 2 → Nat) a + S10000x2.size a ≤ S10000x2.size a
  h_S10000x2 : 0 < S10000x2.numel
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  gather_S100000x64_S500000x1_S500000x64_1_0_n_n_0_1_164_wf : GatherDims.WF S100000x64 S500000x1 S500000x64 [1] [0] [] [0] [] 1 ![1, 64]
  dot_S10000x64_S64x64_S10000x64_1_0_0_1_n_n_wf : DotDims.WF S10000x64 S64x64 S10000x64 [1] [0] [0] [1] [] []
  dot_S10000x64_S64x2_S10000x2_1_0_0_1_n_n_wf : DotDims.WF S10000x64 S64x2 S10000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S500000x64.size a
  hwx2_0 : ∀ i : grid2.Coords, EltTy.bits .f32 = 32 ∨ (Rect.block (s := S500000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S500000x64.size a
  hwx2_1 : ∀ i : grid2.Coords, EltTy.bits .f32 = 32 ∨ (Rect.block (s := S500000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64.size a ≤ S64.size a
  hwx2_5 : ∀ i : grid2.Coords, EltTy.bits .f32 = 32 ∨ (Rect.block (s := S64) S64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x2.size a ≤ S64x2.size a
  hwx2_6 : ∀ i : grid2.Coords, EltTy.bits .f32 = 32 ∨ (Rect.block (s := S64x2) S64x2.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S2.size a ≤ S2.size a
  hwx2_7 : ∀ i : grid2.Coords, EltTy.bits .f32 = 32 ∨ (Rect.block (s := S2) S2.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S10000x2.size a ≤ S500000x2.size a
  hwx2_8 : ∀ i : grid2.Coords, EltTy.bits .f32 = 32 ∨ (Rect.block (s := S500000x2) S10000x2.size (cc2_transform_8 i) (hinb2_8 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x2_S10000x2_1_0_0_1_n_n : DotDims S10000x64 S64x2 S10000x2 where
  lhsContracting := [1]
  rhsContracting := [0]
  lhsNonContracting := [0]
  rhsNonContracting := [1]
  lhsBatch := []
  rhsBatch := []
  wf := dot_S10000x64_S64x2_S10000x2_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v19) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v39) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v47) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v49) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg12) S64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg13) S64x2.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg14) S2.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v50) S10000x2.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S100000x64 : Shape := ⟨2, ![100000, 64]⟩
abbrev S1600000 : Shape := ⟨1, ![1600000]⟩
abbrev S500000 : Shape := ⟨1, ![500000]⟩
abbrev S64x64 : Shape := ⟨2, ![64, 64]⟩
abbrev S64 : Shape := ⟨1, ![64]⟩
abbrev S192x64 : Shape := ⟨2, ![192, 64]⟩
abbrev S64x2 : Shape := ⟨2, ![64, 2]⟩
abbrev S2 : Shape := ⟨1, ![2]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64 : Shape := ⟨2, ![1, 64]⟩
abbrev S500000x1 : Shape := ⟨2, ![500000, 1]⟩
abbrev S500000x64 : Shape := ⟨2, ![500000, 64]⟩
abbrev S500000x192 : Shape := ⟨2, ![500000, 192]⟩
abbrev S500000x2 : Shape := ⟨2, ![500000, 2]⟩
abbrev S1x2 : Shape := ⟨2, ![1, 2]⟩

abbrev nBuf : Space → Nat
  | .hbm => 105
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S500000, .i32⟩
  | .hbm, ⟨4, _⟩ => ⟨S500000, .i32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64x64, .f32⟩
  | .hbm, ⟨10, _⟩ => ⟨S64, .f32⟩
  | .hbm, ⟨11, _⟩ => ⟨S192x64, .f32⟩
  | .hbm, ⟨12, _⟩ => ⟨S64, .f32⟩
  | .hbm, ⟨13, _⟩ => ⟨S64x2, .f32⟩
  | .hbm, ⟨14, _⟩ => ⟨S2, .f32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x64, .f32⟩
  | .hbm, ⟨34, _⟩ => ⟨S_, .f32⟩
  | .hbm, ⟨35, _⟩ => ⟨S100000x64, .f32⟩
  | .hbm, ⟨36, _⟩ => ⟨S1600000x1, .i32⟩
  | .hbm, ⟨37, _⟩ => ⟨S100000x64, .f32⟩
  | .hbm, ⟨38, _⟩ => ⟨S100000x64, .f32⟩
  | .hbm, ⟨39, _⟩ => ⟨S100000x64, .f32⟩
  | .hbm, ⟨40, _⟩ => ⟨S100000x64, .f32⟩
  | .hbm, ⟨41, _⟩ => ⟨S100000x64, .f32⟩
  | .hbm, ⟨42, _⟩ => ⟨S100000x64, .f32⟩
  | .hbm, ⟨43, _⟩ => ⟨S1x64, .f32⟩
  | .hbm, ⟨44, _⟩ => ⟨S100000x64, .f32⟩
  | .hbm, ⟨45, _⟩ => ⟨S100000x64, .f32⟩
  | .hbm, ⟨46, _⟩ => ⟨S_, .f32⟩
  | .hbm, ⟨47, _⟩ => ⟨S100000x64, .f32⟩
  | .hbm, ⟨48, _⟩ => ⟨S100000x64, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x64, .f32⟩
  | .hbm, ⟨58, _⟩ => ⟨S_, .f32⟩
  | .hbm, ⟨59, _⟩ => ⟨S100000x64, .f32⟩
  | .hbm, ⟨60, _⟩ => ⟨S1600000x1, .i32⟩
  | .hbm, ⟨61, _⟩ => ⟨S100000x64, .f32⟩
  | .hbm, ⟨62, _⟩ => ⟨S100000x64, .f32⟩
  | .hbm, ⟨63, _⟩ => ⟨S100000x64, .f32⟩
  | .hbm, ⟨64, _⟩ => ⟨S100000x64, .f32⟩
  | .hbm, ⟨65, _⟩ => ⟨S100000x64, .f32⟩
  | .hbm, ⟨66, _⟩ => ⟨S100000x64, .f32⟩
  | .hbm, ⟨67, _⟩ => ⟨S1x64, .f32⟩
  | .hbm, ⟨68, _⟩ => ⟨S100000x64, .f32⟩
  | .hbm, ⟨69, _⟩ => ⟨S100000x64, .f32⟩
  | .hbm, ⟨70, _⟩ => ⟨S_, .f32⟩
  | .hbm, ⟨71, _⟩ => ⟨S100000x64, .f32⟩
  | .hbm, ⟨72, _⟩ => ⟨S100000x64, .f32⟩
  | .hbm, ⟨73, _⟩ => ⟨S_, .i32⟩
  | .hbm, ⟨74, _⟩ => ⟨S500000, .i32⟩
  | .hbm, ⟨75, _⟩ => ⟨S500000, .i1⟩
  | .hbm, ⟨76, _⟩ => ⟨S_, .i32⟩
  | .hbm, ⟨77, _⟩ => ⟨S500000, .i32⟩
  | .hbm, ⟨78, _⟩ => ⟨S500000, .i32⟩
  | .hbm, ⟨79, _⟩ => ⟨S500000, .i32⟩
  | .hbm, ⟨80, _⟩ => ⟨S500000x1, .i32⟩
  | .hbm, ⟨81, _⟩ => ⟨S500000x64, .f32⟩
  | .hbm, ⟨82, _⟩ => ⟨S_, .i32⟩
  | .hbm, ⟨83, _⟩ => ⟨S500000, .i32⟩
  | .hbm, ⟨84, _⟩ => ⟨S500000, .i1⟩
  | .hbm, ⟨85, _⟩ => ⟨S_, .i32⟩
  | .hbm, ⟨86, _⟩ => ⟨S500000, .i32⟩
  | .hbm, ⟨87, _⟩ => ⟨S500000, .i32⟩
  | .hbm, ⟨88, _⟩ => ⟨S500000, .i32⟩
  | .hbm, ⟨89, _⟩ => ⟨S500000x1, .i32⟩
  | .hbm, ⟨90, _⟩ => ⟨S500000x64, .f32⟩
  | .hbm, ⟨91, _⟩ => ⟨S500000x64, .f32⟩
  | .hbm, ⟨92, _⟩ => ⟨S500000x64, .f32⟩
  | .hbm, ⟨93, _⟩ => ⟨S500000x192, .f32⟩
  | .hbm, ⟨94, _⟩ => ⟨S500000x64, .f32⟩
  | .hbm, ⟨95, _⟩ => ⟨S1x64, .f32⟩
  | .hbm, ⟨96, _⟩ => ⟨S500000x64, .f32⟩
  | .hbm, ⟨97, _⟩ => ⟨S500000x64, .f32⟩
  | .hbm, ⟨98, _⟩ => ⟨S_, .f32⟩
  | .hbm, ⟨99, _⟩ => ⟨S500000x64, .f32⟩
  | .hbm, ⟨100, _⟩ => ⟨S500000x64, .f32⟩
  | .hbm, ⟨101, _⟩ => ⟨S500000x2, .f32⟩
  | .hbm, ⟨102, _⟩ => ⟨S1x2, .f32⟩
  | .hbm, ⟨103, _⟩ => ⟨S500000x2, .f32⟩
  | .hbm, ⟨104, _⟩ => ⟨S500000x2, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst_1 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c : Ref sig .tc := ⟨.hbm, 25, rfl⟩
abbrev main_v7 : Ref sig .tc := ⟨.hbm, 26, rfl⟩
abbrev main_v8 : Ref sig .tc := ⟨.hbm, 27, rfl⟩
abbrev main_c_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_3 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_call0_cst : Ref sig .tc := ⟨.hbm, 46, rfl⟩
abbrev main_call0_v0 : Ref sig .tc := ⟨.hbm, 47, rfl⟩
abbrev main_v25 : Ref sig .tc := ⟨.hbm, 48, rfl⟩
abbrev main_c_4 : Ref sig .tc := ⟨.hbm, 49, rfl⟩
abbrev main_v26 : Ref sig .tc := ⟨.hbm, 50, rfl⟩
abbrev main_v27 : Ref sig .tc := ⟨.hbm, 51, rfl⟩
abbrev main_c_5 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_6 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_call1_cst : Ref sig .tc := ⟨.hbm, 70, rfl⟩
abbrev main_call1_v0 : Ref sig .tc := ⟨.hbm, 71, rfl⟩
abbrev main_v44 : Ref sig .tc := ⟨.hbm, 72, rfl⟩
abbrev main_c_7 : Ref sig .tc := ⟨.hbm, 73, rfl⟩
abbrev main_v45 : Ref sig .tc := ⟨.hbm, 74, rfl⟩
abbrev main_v46 : Ref sig .tc := ⟨.hbm, 75, rfl⟩
abbrev main_c_8 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_c_9 : Ref sig .tc := ⟨.hbm, 82, rfl⟩
abbrev main_v52 : Ref sig .tc := ⟨.hbm, 83, rfl⟩
abbrev main_v53 : Ref sig .tc := ⟨.hbm, 84, rfl⟩
abbrev main_c_10 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_call2_cst : Ref sig .tc := ⟨.hbm, 98, rfl⟩
abbrev main_call2_v0 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S500000 : S_.BroadcastsInDim S500000 (![] : Fin 0 → Fin S500000.rank)
  bcast_S500000_S500000x1_0 : S500000.BroadcastsInDim S500000x1 (![0] : Fin 1 → Fin S500000x1.rank)
  concatenates_S500000x64_S500000x64_S500000x64_S500000x192_d1 : Shape.Concatenates [S500000x64, S500000x64, S500000x64] S500000x192 1
  bcast_S1x64_S500000x64_0_1 : S1x64.BroadcastsInDim S500000x64 (![0, 1] : Fin 2 → Fin S500000x64.rank)
  bcast_S_S500000x64 : S_.BroadcastsInDim S500000x64 (![] : Fin 0 → Fin S500000x64.rank)
  bcast_S2_S1x2_1 : S2.BroadcastsInDim S1x2 (![1] : Fin 1 → Fin S1x2.rank)
  bcast_S1x2_S500000x2_0_1 : S1x2.BroadcastsInDim S500000x2 (![0, 1] : Fin 2 → Fin S500000x2.rank)
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  gather_S100000x64_S500000x1_S500000x64_1_0_n_n_0_1_164_wf : GatherDims.WF S100000x64 S500000x1 S500000x64 [1] [0] [] [0] [] 1 ![1, 64]
  dot_S500000x192_S192x64_S500000x64_1_0_0_1_n_n_wf : DotDims.WF S500000x192 S192x64 S500000x64 [1] [0] [0] [1] [] []
  dot_S500000x64_S64x2_S500000x2_1_0_0_1_n_n_wf : DotDims.WF S500000x64 S64x2 S500000x2 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf
def dot_S500000x192_S192x64_S500000x64_1_0_0_1_n_n : DotDims S500000x192 S192x64 S500000x64 where
  lhsContracting := [1]
  rhsContracting := [0]
  lhsNonContracting := [0]
  rhsNonContracting := [1]
  lhsBatch := []
  rhsBatch := []
  wf := dot_S500000x192_S192x64_S500000x64_1_0_0_1_n_n_wf
def dot_S500000x64_S64x2_S500000x2_1_0_0_1_n_n : DotDims S500000x64 S64x2 S500000x2 where
  lhsContracting := [1]
  rhsContracting := [0]
  lhsNonContracting := [0]
  rhsNonContracting := [1]
  lhsBatch := []
  rhsBatch := []
  wf := dot_S500000x64_S64x2_S500000x2_1_0_0_1_n_n_wf

class Facts : Prop extends Facts₀ where

variable [Facts]
-- ==== Proof.Spec.lean ====
/-
  The mathematics of the two programs, index by index over the extended reals, with no program imported.

  A graph layer with mean aggregation sends a node-feature matrix x [100000, 64] and the matrix nb of its rows'
  neighbour means to relu (x · Ws + nb · Wn + b): entry (r, j) is
      max ((Σ_k x[r,k] · Ws[k,j]) + (Σ_k nb[r,k] · Wn[k,j]) + b[j]) 0.
  The pair head sends two row-gathered matrices h1, h2 [500000, 64] to relu (e · W1 + c1) · W2 + c2, where
  e = [h1 | h2 | |h1 − h2|] has 192 columns. One program forms e and contracts all 192 columns at once; the other
  contracts the three 64-column pieces against the three 64-row blocks of W1 and adds the three products. The two
  hidden layers agree because a sum over 192 = 64 + 64 + 64 indices is the sum of the three sums over its thirds,
  which needs only that addition of extended reals is commutative and associative (no finiteness).
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- A real matrix with `r` rows and `c` columns, as a function of its index. -/
abbrev Mat (r c : Nat) : Type := FVec Ideal (⟨2, ![r, c]⟩ : Shape) .f32
/-- A real vector of length `n`. -/
abbrev Row (n : Nat) : Type := FVec Ideal (⟨1, ![n]⟩ : Shape) .f32

/-- The absolute value on the extended reals, as the larger of a number and its negative. -/
def absE (a : EReal) : EReal := max a (-a)

/-! ## One graph layer -/

/-- Entry (r, j) of relu (x · Ws + nb · Wn + b). -/
def sageAt (x nb : Mat 100000 64) (ws wn : Mat 64 64) (b : Row 64) (r : Fin 100000) (j : Fin 64) : EReal :=
  max (((∑ k : Fin 64, x (ix2 r k) * ws (ix2 k j)) + ∑ k : Fin 64, nb (ix2 r k) * wn (ix2 k j)) + b (ix1 j)) 0

/-- relu (x · Ws + nb · Wn + b) as a matrix. -/
def sage (x nb : Mat 100000 64) (ws wn : Mat 64 64) (b : Row 64) : Mat 100000 64 :=
  fun i => sageAt x nb ws wn b (i 0) (i 1)

theorem sage_apply (x nb : Mat 100000 64) (ws wn : Mat 64 64) (b : Row 64) (r : Fin 100000) (j : Fin 64) :
    sage x nb ws wn b (ix2 r j) = sageAt x nb ws wn b r j := rfl

/-! ## The pair head, in the two arrangements -/

/-- Hidden unit (p, j) with the 192-column contraction done as three 64-column contractions against three
    separate 64 × 64 weight blocks. -/
def hidSplitAt (h1 h2 : Mat 500000 64) (wa wb wc : Mat 64 64) (c1 : Row 64) (p : Fin 500000) (j : Fin 64) : EReal :=
  max (((((∑ k : Fin 64, h1 (ix2 p k) * wa (ix2 k j)) + ∑ k : Fin 64, h2 (ix2 p k) * wb (ix2 k j))
      + ∑ k : Fin 64, absE (h1 (ix2 p k) - h2 (ix2 p k)) * wc (ix2 k j))) + c1 (ix1 j)) 0

/-- Column `k` of the concatenation [h1 | h2 | |h1 − h2|] in row `p`. -/
def catAt (h1 h2 : Mat 500000 64) (p : Fin 500000) (k : Fin 192) : EReal :=
  if h : k.val < 64 then h1 (ix2 p ⟨k.val, h⟩)
  else if h' : k.val < 128 then h2 (ix2 p ⟨k.val - 64, by omega⟩)
  else absE (h1 (ix2 p ⟨k.val - 128, by omega⟩) - h2 (ix2 p ⟨k.val - 128, by omega⟩))

/-- Hidden unit (p, j) with the whole 192-column contraction at once. -/
def hidCatAt (h1 h2 : Mat 500000 64) (w1 : Mat 192 64) (c1 : Row 64) (p : Fin 500000) (j : Fin 64) : EReal :=
  max ((∑ k : Fin 192, catAt h1 h2 p k * w1 (ix2 k j)) + c1 (ix1 j)) 0

/-- The head's output (p, c) from a hidden layer given entry by entry. -/
def outAt (hid : Fin 500000 → Fin 64 → EReal) (w2 : Mat 64 2) (c2 : Row 2) (p : Fin 500000) (c : Fin 2) : EReal :=
  (∑ j : Fin 64, hid p j * w2 (ix2 j c)) + c2 (ix1 c)

/-- The head with the three-block hidden layer. -/
def headSplit (h1 h2 : Mat 500000 64) (wa wb wc : Mat 64 64) (c1 : Row 64) (w2 : Mat 64 2) (c2 : Row 2) : Mat 500000 2 :=
  fun i => outAt (hidSplitAt h1 h2 wa wb wc c1) w2 c2 (i 0) (i 1)

/-- The head with the concatenated hidden layer. -/
def headCat (h1 h2 : Mat 500000 64) (w1 : Mat 192 64) (c1 : Row 64) (w2 : Mat 64 2) (c2 : Row 2) : Mat 500000 2 :=
  fun i => outAt (hidCatAt h1 h2 w1 c1) w2 c2 (i 0) (i 1)

theorem headSplit_apply (h1 h2 : Mat 500000 64) (wa wb wc : Mat 64 64) (c1 : Row 64) (w2 : Mat 64 2) (c2 : Row 2)
    (p : Fin 500000) (c : Fin 2) :
    headSplit h1 h2 wa wb wc c1 w2 c2 (ix2 p c) = outAt (hidSplitAt h1 h2 wa wb wc c1) w2 c2 p c := rfl

theorem headCat_apply (h1 h2 : Mat 500000 64) (w1 : Mat 192 64) (c1 : Row 64) (w2 : Mat 64 2) (c2 : Row 2)
    (p : Fin 500000) (c : Fin 2) :
    headCat h1 h2 w1 c1 w2 c2 (ix2 p c) = outAt (hidCatAt h1 h2 w1 c1) w2 c2 p c := rfl

/-! ## The whole network -/

/-- Two graph layers and the pair head. `nbr` is the neighbour-mean map of a feature matrix (a gather along the
    edges' sources, a sum into the edges' destinations, a division by the clamped in-degree) and `g1`, `g2` gather the
    rows named by the two ends of each pair; both programs apply the same three maps, so they stay unopened. -/
def final (nbr : Mat 100000 64 → Mat 100000 64) (g1 g2 : Mat 100000 64 → Mat 500000 64)
    (h : Mat 100000 64) (ws0 wn0 : Mat 64 64) (b0 : Row 64) (ws1 wn1 : Mat 64 64) (b1 : Row 64)
    (w1 : Mat 192 64) (c1 : Row 64) (w2 : Mat 64 2) (c2 : Row 2) : Mat 500000 2 :=
  let H1 := sage h (nbr h) ws0 wn0 b0
  let H2 := sage H1 (nbr H1) ws1 wn1 b1
  headCat (g1 H2) (g2 H2) w1 c1 w2 c2

/-! ## The law between the two arrangements -/

/-- A sum over 192 indices is the sum over its three thirds. -/
theorem sum_192 (f : Fin 192 → EReal) :
    ∑ k : Fin 192, f k = ((∑ k : Fin 64, f ⟨k.val, by omega⟩) + ∑ k : Fin 64, f ⟨64 + k.val, by omega⟩)
      + ∑ k : Fin 64, f ⟨128 + k.val, by omega⟩ := by
  have e : ∑ k : Fin 192, f k = ∑ k : Fin (64 + 64 + 64), f ⟨k.val, by omega⟩ := rfl
  rw [e, Fin.sum_univ_add, Fin.sum_univ_add]
  rfl

/-- The concatenated hidden layer is the three-block one, when the three blocks are the thirds of W1's rows. -/
theorem hidCatAt_eq (h1 h2 : Mat 500000 64) (w1 : Mat 192 64) (wa wb wc : Mat 64 64) (c1 : Row 64)
    (ha : ∀ (k : Fin 64) (j : Fin 64), wa (ix2 k j) = w1 (ix2 (⟨k.val, by omega⟩ : Fin 192) j))
    (hb : ∀ (k : Fin 64) (j : Fin 64), wb (ix2 k j) = w1 (ix2 (⟨64 + k.val, by omega⟩ : Fin 192) j))
    (hc : ∀ (k : Fin 64) (j : Fin 64), wc (ix2 k j) = w1 (ix2 (⟨128 + k.val, by omega⟩ : Fin 192) j))
    (p : Fin 500000) (j : Fin 64) :
    hidCatAt h1 h2 w1 c1 p j = hidSplitAt h1 h2 wa wb wc c1 p j := by
  unfold hidCatAt hidSplitAt
  rw [sum_192]
  have e1 : ∀ k : Fin 64, catAt h1 h2 p ⟨k.val, by omega⟩ = h1 (ix2 p k) := fun k => by
    unfold catAt; rw [dif_pos (show (⟨k.val, _⟩ : Fin 192).val < 64 from k.isLt)]
  have e2 : ∀ k : Fin 64, catAt h1 h2 p ⟨64 + k.val, by omega⟩ = h2 (ix2 p k) := fun k => by
    unfold catAt
    rw [dif_neg (show ¬ (⟨64 + k.val, _⟩ : Fin 192).val < 64 from by show ¬ (64 + k.val < 64); omega),
      dif_pos (show (⟨64 + k.val, _⟩ : Fin 192).val < 128 from by have := k.isLt; show 64 + k.val < 128; omega)]
    have ek : (⟨(⟨64 + k.val, by omega⟩ : Fin 192).val - 64, by have := k.isLt; show 64 + k.val - 64 < 64; omega⟩ : Fin 64) = k := by
      apply Fin.ext; show 64 + k.val - 64 = k.val; omega
    simp only [ek]
  have e3 : ∀ k : Fin 64, catAt h1 h2 p ⟨128 + k.val, by omega⟩ = absE (h1 (ix2 p k) - h2 (ix2 p k)) := fun k => by
    unfold catAt
    rw [dif_neg (show ¬ (⟨128 + k.val, _⟩ : Fin 192).val < 64 from by show ¬ (128 + k.val < 64); omega),
      dif_neg (show ¬ (⟨128 + k.val, _⟩ : Fin 192).val < 128 from by show ¬ (128 + k.val < 128); omega)]
    have ek : (⟨(⟨128 + k.val, by omega⟩ : Fin 192).val - 128, by have := k.isLt; show 128 + k.val - 128 < 64; omega⟩ : Fin 64) = k := by
      apply Fin.ext; show 128 + k.val - 128 = k.val; omega
    simp only [ek]
  simp only [e1, e2, e3, ha, hb, hc]

/-- The two heads agree, when the three blocks are the thirds of W1's rows. -/
theorem headCat_eq_headSplit (h1 h2 : Mat 500000 64) (w1 : Mat 192 64) (wa wb wc : Mat 64 64) (c1 : Row 64)
    (w2 : Mat 64 2) (c2 : Row 2)
    (ha : ∀ (k : Fin 64) (j : Fin 64), wa (ix2 k j) = w1 (ix2 (⟨k.val, by omega⟩ : Fin 192) j))
    (hb : ∀ (k : Fin 64) (j : Fin 64), wb (ix2 k j) = w1 (ix2 (⟨64 + k.val, by omega⟩ : Fin 192) j))
    (hc : ∀ (k : Fin 64) (j : Fin 64), wc (ix2 k j) = w1 (ix2 (⟨128 + k.val, by omega⟩ : Fin 192) j)) :
    headCat h1 h2 w1 c1 w2 c2 = headSplit h1 h2 wa wb wc c1 w2 c2 := by
  have e : hidCatAt h1 h2 w1 c1 = hidSplitAt h1 h2 wa wb wc c1 :=
    funext fun p => funext fun j => hidCatAt_eq h1 h2 w1 wa wb wc c1 ha hb hc p j
  unfold headCat headSplit
  rw [e]

end Cert.Spec

end
-- ==== Proof.Glue.lean ====
/-
  The two maps both programs apply on the host, each kept as ONE function so that no proof ever opens it.

  `nbr src dst feat` is the neighbour mean of a feature matrix: gather the rows of `feat` named by the edges' sources
  (a negative index wrapped once by the table's height, as the indexing convention has it), add them into the rows named
  by the edges' destinations, and divide row r by the clamped in-degree max(#\{e : dst e = r\}, 1), the degree itself being
  a sum of ones scattered along `dst`. `gat x feat` gathers the rows of `feat` named by `x` under the same convention.
  Both programs spell these with the very same operations on the very same operands, so equality of the results
  reduces to equality of the feature matrices going in.
-/
import proofs.«120793_j14190571946097_1_alg».proof.Proof.Gen.ReferenceIdeal
import proofs.«120793_j14190571946097_1_alg».proof.Proof.Spec

noncomputable section

namespace Cert.Glue

open Cert.ReferenceIdeal Cert.ReferenceIdeal.Gen Idealize.ShloMosaic

/-- The clamped in-degree of every node, as a column [100000, 1]. -/
def degCol (dst : IVec S1600000 32) : FVec Ideal S100000x1 .f32 :=
  broadcastInDim S100000x1 ![0] bcast_S100000_S100000x1_0
    (maximumf
      (Host.scatterAdd scatter_S100000_S1600000x1_S1600000_n_0_0_1
        (broadcastInDim S100000 ![] bcast_S_S100000 (constant (F := Ideal) S_ .f32 0x00000000#32))
        (broadcastInDim S1600000x1 ![0] bcast_S1600000_S1600000x1_0 dst)
        (broadcastInDim S1600000 ![] bcast_S_S1600000 (constant (F := Ideal) S_ .f32 0x3F800000#32)))
      (broadcastInDim S100000 ![] bcast_S_S100000 (constant (F := Ideal) S_ .f32 0x3F800000#32)))

/-- The neighbour mean of a feature matrix along the edges `src → dst`. -/
def nbr (src dst : IVec S1600000 32) (feat : FVec Ideal S100000x64 .f32) : FVec Ideal S100000x64 .f32 :=
  Host.divf
    (Host.scatterAdd scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 dst)
      (Host.gather gather_S100000x64_S1600000x1_S1600000x64_1_0_n_n_0_1_164 feat
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src))))
    (broadcastInDim S100000x64 ![0, 1] bcast_S100000x1_S100000x64_0_1 (degCol dst))

/-- The rows of a feature matrix named by one end of each pair. -/
def gat (x : IVec S500000 32) (feat : FVec Ideal S100000x64 .f32) : FVec Ideal S500000x64 .f32 :=
  Host.gather gather_S100000x64_S500000x1_S500000x64_1_0_n_n_0_1_164 feat
    (broadcastInDim S500000x1 ![0] bcast_S500000_S500000x1_0
      (select (cmpi .slt x (broadcastInDim S500000 ![] bcast_S_S500000 (constantI S_ 32 0#32)))
        (addi x (broadcastInDim S500000 ![] bcast_S_S500000 (constantI S_ 32 100000#32))) x))

/-- The whole network over the two host maps: what both programs are shown to compute. -/
def network (h : FVec Ideal S100000x64 .f32) (src dst : IVec S1600000 32) (x1 x2 : IVec S500000 32)
    (ws0 wn0 : FVec Ideal S64x64 .f32) (b0 : FVec Ideal S64 .f32) (ws1 wn1 : FVec Ideal S64x64 .f32) (b1 : FVec Ideal S64 .f32)
    (w1 : FVec Ideal S192x64 .f32) (c1 : FVec Ideal S64 .f32) (w2 : FVec Ideal S64x2 .f32) (c2 : FVec Ideal S2 .f32) :
    FVec Ideal S500000x2 .f32 :=
  Cert.Spec.final (nbr src dst) (gat x1) (gat x2) h ws0 wn0 b0 ws1 wn1 b1 w1 c1 w2 c2

end Cert.Glue

end
-- ==== Proof.Layer0Value.lean ====
/-
  The first graph layer, as one matrix. The region runs over twenty grid points; point t reads rows
  5000·t … 5000·t + 4999 of the feature matrix x and of the neighbour-mean matrix nb, the whole weight matrices
  Ws and Wn and the whole bias row b, and writes back the same rows of the output. Entry (p, j) of what a point
  computes is max ((Σ_k x[p,k]·Ws[k,j] + Σ_k nb[p,k]·Wn[k,j]) + b[j]) 0 of its blocks, and the twenty row blocks
  tile the 100000 rows, so the output array ends as relu (x · Ws + nb · Wn + b).
-/
import proofs.«120793_j14190571946097_1_alg».proof.Proof.KernelIdealFrame
import proofs.«120793_j14190571946097_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384
noncomputable section
namespace Cert.KernelIdeal.Layer0
open Idealize.ShloMosaic Idealize.ShloMosaic.TcCoe Idealize.ShloMosaic.ValueIdx Idealize.SL.Sem Cert.KernelIdeal Cert.KernelIdeal.Gen
open Idealize.ShloMosaic.Pipeline (Dat)

/-! ## A 5000 × 64 by 64 × 64 product at an index

The contraction record pairs axis 1 of the left operand with axis 0 of the right one. Read at the output index
(p, j), the left index keeps p on its free axis and carries the contraction coordinate on axis 1; the right index
carries the contraction coordinate on axis 0 and keeps j on its free axis. -/

/-- The left index's free axis is the output row. -/
theorem left_row (i : S5000x64.Idx) (q : Cert.KernelIdeal.dot_S5000x64_S64x64_S5000x64_1_0_0_1_n_n.contr.Idx) :
    (Cert.KernelIdeal.dot_S5000x64_S64x64_S5000x64_1_0_0_1_n_n.lhsIdx i q 0).val = (i 0).val := by
  unfold DotDims.lhsIdx
  rw [dif_neg (show ¬(0 : Fin S5000x64.rank) ∈ Cert.KernelIdeal.dot_S5000x64_S64x64_S5000x64_1_0_0_1_n_n.lhsBatch by decide), dif_pos (show (0 : Fin S5000x64.rank) ∈ Cert.KernelIdeal.dot_S5000x64_S64x64_S5000x64_1_0_0_1_n_n.lhsNonContracting by decide)]
  rfl

/-- The left index's contracted axis is the contraction coordinate. -/
theorem left_contr (i : S5000x64.Idx) (q : Cert.KernelIdeal.dot_S5000x64_S64x64_S5000x64_1_0_0_1_n_n.contr.Idx) :
    (Cert.KernelIdeal.dot_S5000x64_S64x64_S5000x64_1_0_0_1_n_n.lhsIdx i q 1).val = (q ⟨0, by decide⟩).val :=
  Cert.KernelIdeal.dot_S5000x64_S64x64_S5000x64_1_0_0_1_n_n.lhsIdx_val_of_single rfl i q

/-- The right index's contracted axis is the contraction coordinate. -/
theorem right_contr (i : S5000x64.Idx) (q : Cert.KernelIdeal.dot_S5000x64_S64x64_S5000x64_1_0_0_1_n_n.contr.Idx) :
    (Cert.KernelIdeal.dot_S5000x64_S64x64_S5000x64_1_0_0_1_n_n.rhsIdx i q 0).val = (q ⟨0, by decide⟩).val :=
  Cert.KernelIdeal.dot_S5000x64_S64x64_S5000x64_1_0_0_1_n_n.rhsIdx_val_of_single rfl i q

/-- The right index's free axis is the output column. -/
theorem right_col (i : S5000x64.Idx) (q : Cert.KernelIdeal.dot_S5000x64_S64x64_S5000x64_1_0_0_1_n_n.contr.Idx) :
    (Cert.KernelIdeal.dot_S5000x64_S64x64_S5000x64_1_0_0_1_n_n.rhsIdx i q 1).val = (i 1).val := by
  unfold DotDims.rhsIdx
  rw [dif_neg (show ¬(1 : Fin S64x64.rank) ∈ Cert.KernelIdeal.dot_S5000x64_S64x64_S5000x64_1_0_0_1_n_n.rhsBatch by decide), dif_pos (show (1 : Fin S64x64.rank) ∈ Cert.KernelIdeal.dot_S5000x64_S64x64_S5000x64_1_0_0_1_n_n.rhsNonContracting by decide)]
  rfl

/-- Entry (p, j) of the product accumulated into zero is Σ_k a[p,k] · w[k,j]. -/
theorem prod_at {φ₁ φ₂ : FTy} (a : FVec Ideal S5000x64 φ₁) (w : FVec Ideal S64x64 φ₂) (p : Fin 5000) (j : Fin 64) :
    matmul Cert.KernelIdeal.dot_S5000x64_S64x64_S5000x64_1_0_0_1_n_n none a w (constant (F := Ideal) S5000x64 .f32 0x00000000#32) (ix2 p j)
      = ∑ k : Fin 64, a (ix2 p k) * w (ix2 k j) := by
  show FloatOps.matmul Cert.KernelIdeal.dot_S5000x64_S64x64_S5000x64_1_0_0_1_n_n none a w (constant (F := Ideal) S5000x64 .f32 0x00000000#32) (ix2 p j) = _
  rw [Ideal.matmul_constant_zero_apply, ← Equiv.sum_comp (ValueIdx.contrEquiv1 Cert.KernelIdeal.dot_S5000x64_S64x64_S5000x64_1_0_0_1_n_n 64 rfl rfl).symm]
  refine Finset.sum_congr rfl fun k _ => ?_
  have hk := ValueIdx.contrEquiv1_symm_val Cert.KernelIdeal.dot_S5000x64_S64x64_S5000x64_1_0_0_1_n_n 64 rfl rfl k
  have el : Cert.KernelIdeal.dot_S5000x64_S64x64_S5000x64_1_0_0_1_n_n.lhsIdx (ix2 p j) ((ValueIdx.contrEquiv1 Cert.KernelIdeal.dot_S5000x64_S64x64_S5000x64_1_0_0_1_n_n 64 rfl rfl).symm k) = ix2 p k := funext fun ax => Fin.ext (by
    match ax with
    | ⟨0, _⟩ => exact left_row _ _
    | ⟨1, _⟩ => exact (left_contr _ _).trans hk)
  have er : Cert.KernelIdeal.dot_S5000x64_S64x64_S5000x64_1_0_0_1_n_n.rhsIdx (ix2 p j) ((ValueIdx.contrEquiv1 Cert.KernelIdeal.dot_S5000x64_S64x64_S5000x64_1_0_0_1_n_n 64 rfl rfl).symm k) = ix2 k j := funext fun ax => Fin.ext (by
    match ax with
    | ⟨0, _⟩ => exact (right_contr _ _).trans hk
    | ⟨1, _⟩ => exact right_col _ _)
  rw [el, er]

/-! ## The body's arithmetic at an index -/

/-- Entry (p, j) of what one grid point computes from its five loaded blocks: the rounding casts are identities
    over the extended reals, the row cast and the row broadcast read the bias at j, and the final maximum is
    against the zero word. -/
theorem body_at (x nb : Vec Ideal S5000x64 .f32) (ws wn : Vec Ideal S64x64 .f32) (b : Vec Ideal S64 .f32) (p : Fin 5000) (j : Fin 64) :
    k0_pay1 (F := Ideal) x nb ws wn b (ix2 p j)
      = max (((∑ k : Fin 64, x (ix2 p k) * ws (ix2 k j)) + ∑ k : Fin 64, nb (ix2 p k) * wn (ix2 k j)) + b (ix1 j)) 0 := by
  unfold k0_pay1
  rw [maximumf_apply, addf_apply, addf_apply, prod_at, prod_at, broadcast_apply, broadcastTo_1b_ab_apply, shapeCast_a_1a_apply, shapeCast_self]
  simp only [truncf_apply]
  show max _ (Ideal.ofBits .f32 0x00000000#32) = _
  rw [Ideal.ofBits_zero_f32]

/-! ## From the blocks to the array -/

variable (V : (c : Dev nD) → (b : Ref sig .tc) → Buf (Elt Ideal) ((c : Thread nD τ).loc b))

theorem zero_off2 : (![0, 0] : Fin 2 → Nat) = fun _ => 0 := funext fun a => by fin_cases a <;> rfl
theorem zero_off1 : (![0] : Fin 1 → Nat) = fun _ => 0 := funext fun a => by fin_cases a <;> rfl

/-- The block index maps over the twenty grid points: the row-blocked windows (features, neighbour means, output)
    sit at block row t and block column 0; the weights and the bias sit at block 0 at every point. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0
    ∧ t.val < 20 :=
  (by decide +kernel : ∀ t : Fin grid0.N, _)

/-- Row p of the feature block at point t is row 5000·t + p of the feature matrix. -/
theorem feat_block (c : Dev nD) (t : Fin cfg0.N) (p : Fin 5000) (k : Fin 64) (r : Fin 100000) (hr : r.val = 5000 * t.val + p.val) :
    (iblk0 V c 0 t : Vec Ideal S5000x64 .f32) (ix2 p k) = (V c main_arg0 : S100000x64.Idx → EReal) (ix2 r k) := by
  obtain ⟨e0, e1, -⟩ := block_indices t
  show V c main_arg0 (((cfg0.win 0).blk t).view.emb (ix2 p k)) = V c main_arg0 (ix2 r k)
  refine congrArg (V c main_arg0) ?_
  funext a; apply Fin.ext
  match a with
  | ⟨0, _⟩ => show win0_0.index t (0 : Fin 2) * 5000 + 1 * p.val = r.val; omega
  | ⟨1, _⟩ => show win0_0.index t (1 : Fin 2) * 64 + 1 * k.val = k.val; omega

/-- Row p of the neighbour-mean block at point t is row 5000·t + p of the neighbour-mean matrix. -/
theorem nbr_block (c : Dev nD) (t : Fin cfg0.N) (p : Fin 5000) (k : Fin 64) (r : Fin 100000) (hr : r.val = 5000 * t.val + p.val) :
    (iblk0 V c 1 t : Vec Ideal S5000x64 .f32) (ix2 p k) = (V c main_v18 : S100000x64.Idx → EReal) (ix2 r k) := by
  obtain ⟨-, -, e0, e1, -⟩ := block_indices t
  show V c main_v18 (((cfg0.win 1).blk t).view.emb (ix2 p k)) = V c main_v18 (ix2 r k)
  refine congrArg (V c main_v18) ?_
  funext a; apply Fin.ext
  match a with
  | ⟨0, _⟩ => show win0_1.index t (0 : Fin 2) * 5000 + 1 * p.val = r.val; omega
  | ⟨1, _⟩ => show win0_1.index t (1 : Fin 2) * 64 + 1 * k.val = k.val; omega

/-- The self weights' block is the whole weight matrix at every point. -/
theorem ws_block (c : Dev nD) (t : Fin cfg0.N) (k j : Fin 64) :
    (iblk0 V c 2 t : Vec Ideal S64x64 .f32) (ix2 k j) = (V c main_arg5 : S64x64.Idx → EReal) (ix2 k j) := by
  obtain ⟨-, -, -, -, e0, e1, -⟩ := block_indices t
  show V c main_arg5 (((cfg0.win 2).blk t).view.emb (ix2 k j)) = V c main_arg5 (ix2 k j)
  refine congrArg (V c main_arg5) ?_
  funext a; apply Fin.ext
  match a with
  | ⟨0, _⟩ => show win0_2.index t (0 : Fin 2) * 64 + 1 * k.val = k.val; omega
  | ⟨1, _⟩ => show win0_2.index t (1 : Fin 2) * 64 + 1 * j.val = j.val; omega

/-- The neighbour weights' block is the whole weight matrix at every point. -/
theorem wn_block (c : Dev nD) (t : Fin cfg0.N) (k j : Fin 64) :
    (iblk0 V c 3 t : Vec Ideal S64x64 .f32) (ix2 k j) = (V c main_arg6 : S64x64.Idx → EReal) (ix2 k j) := by
  obtain ⟨-, -, -, -, -, -, e0, e1, -⟩ := block_indices t
  show V c main_arg6 (((cfg0.win 3).blk t).view.emb (ix2 k j)) = V c main_arg6 (ix2 k j)
  refine congrArg (V c main_arg6) ?_
  funext a; apply Fin.ext
  match a with
  | ⟨0, _⟩ => show win0_3.index t (0 : Fin 2) * 64 + 1 * k.val = k.val; omega
  | ⟨1, _⟩ => show win0_3.index t (1 : Fin 2) * 64 + 1 * j.val = j.val; omega

/-- The bias block is the whole bias row at every point. -/
theorem bias_block (c : Dev nD) (t : Fin cfg0.N) (j : Fin 64) :
    (iblk0 V c 4 t : Vec Ideal S64 .f32) (ix1 j) = (V c main_arg7 : S64.Idx → EReal) (ix1 j) := by
  obtain ⟨-, -, -, -, -, -, -, -, e0, -⟩ := block_indices t
  show V c main_arg7 (((cfg0.win 4).blk t).view.emb (ix1 j)) = V c main_arg7 (ix1 j)
  refine congrArg (V c main_arg7) ?_
  funext a; apply Fin.ext
  match a with
  | ⟨0, _⟩ => show win0_4.index t (0 : Fin 1) * 64 + 1 * j.val = j.val; omega

/-- Entry (p, j) of the output block at point t sits at row 5000·t + p, column j of the output matrix. -/
theorem out_block_index (t : Fin cfg0.N) (p : Fin 5000) (j : Fin 64) (r : Fin 100000) (hr : r.val = 5000 * t.val + p.val) :
    ((cfg0.win 5).blk t).view.emb (ix2 p j) = (ix2 r j : S100000x64.Idx) := by
  obtain ⟨-, -, -, -, -, -, -, -, -, e0, e1, -⟩ := block_indices t
  funext a; apply Fin.ext
  match a with
  | ⟨0, _⟩ => show win0_5.index t (0 : Fin 2) * 5000 + 1 * p.val = r.val; omega
  | ⟨1, _⟩ => show win0_5.index t (1 : Fin 2) * 64 + 1 * j.val = j.val; omega

/-- What point t writes back is block t of the layer's matrix. -/
theorem flushed_eq (c : Dev nD) (t : Fin cfg0.N) :
    (dat0 (F := Ideal) V c).flushed 5 t
      = ((cfg0.win 5).blk t).view.read (Elt Ideal) (Cert.Spec.sage (V c main_arg0) (V c main_v18) (V c main_arg5) (V c main_arg6) (V c main_arg7)) := by
  show (cfg0.win 5).cut (grid0.coords t) ((dat0 (F := Ideal) V c).after 5 t) = _
  rw [after0_5]
  unfold out0_5
  rw [View.canon_unit_zero zero_off2]
  simp only [View.ld_unit_zero (S := S5000x64) zero_off2, View.ld_unit_zero (S := S64x64) zero_off2, View.ld_unit_zero (S := S64) zero_off1]
  have ht : t.val < 20 := (block_indices t).2.2.2.2.2.2.2.2.2.2.2
  funext y
  obtain ⟨p, j, rfl⟩ : ∃ (p : Fin 5000) (j : Fin 64), y = ix2 p j := ⟨y 0, y 1, eq_ix2 y⟩
  have hr : (⟨5000 * t.val + p.val, by have := p.isLt; omega⟩ : Fin 100000).val = 5000 * t.val + p.val := rfl
  refine (body_at (iblk0 V c 0 t) (iblk0 V c 1 t) (iblk0 V c 2 t) (iblk0 V c 3 t) (iblk0 V c 4 t) p j).trans ?_
  show _ = Cert.Spec.sage (V c main_arg0) (V c main_v18) (V c main_arg5) (V c main_arg6) (V c main_arg7) (((cfg0.win 5).blk t).view.emb (ix2 p j))
  rw [out_block_index t p j _ hr, Cert.Spec.sage_apply]
  unfold Cert.Spec.sageAt
  refine congrArg₂ max (congrArg₂ (· + ·) (congrArg₂ (· + ·) (Finset.sum_congr rfl fun k _ => ?_) (Finset.sum_congr rfl fun k _ => ?_)) ?_) rfl
  · exact congrArg₂ (· * ·) (feat_block V c t p k _ hr) (ws_block V c t k j)
  · exact congrArg₂ (· * ·) (nbr_block V c t p k _ hr) (wn_block V c t k j)
  · exact bias_block V c t j

/-- An index of the output matrix is in point t's block iff each coordinate is in the block's range on its axis. -/
theorem mem_block (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v19).slice (win0_5.rect t)).set ↔ _
  rw [View.set_slice_whole, Rect.mem_set_unit]
  exact Iff.rfl

/-- Row r lies in the block of point r / 5000: the twenty blocks tile the matrix. -/
theorem cover (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 20 := by decide
  let t : Fin cfg0.N := ⟨(i 0).val / 5000, by rw [hN]; omega⟩
  obtain ⟨-, -, -, -, -, -, -, -, -, e0, e1, -⟩ := block_indices t
  have tv : t.val = (i 0).val / 5000 := rfl
  refine ⟨t, flush0_5 t, ?_⟩
  rw [mem_block]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 64 ≤ (i 1).val ∧ (i 1).val < win0_5.index t (1 : Fin 2) * 64 + 64; omega

/-- The output array after the region: relu (x · Ws + nb · Wn + b) of the arrays the region reads. -/
theorem arr_final (c : Dev nD) :
    (dat0 (F := Ideal) V c).arrAt 5 cfg0.N
      = Cert.Spec.sage (V c main_arg0) (V c main_v18) (V c main_arg5) (V c main_arg6) (V c main_arg7) :=
  (dat0 (F := Ideal) V c).arrAt_eq_of_cover 5 _ (fun t _ => flushed_eq V c t) cover

end Cert.KernelIdeal.Layer0

end
-- ==== Proof.Layer1Value.lean ====
/-
  The second graph layer, as one matrix. The region has the first layer's shape: twenty grid points, point t
  reading rows 5000·t … 5000·t + 4999 of the first layer's output h and of its neighbour-mean matrix nb, the whole
  weight matrices Ws and Wn and the whole bias row b, and writing back the same rows of the output. Entry (p, j) of
  what a point computes is max ((Σ_k h[p,k]·Ws[k,j] + Σ_k nb[p,k]·Wn[k,j]) + b[j]) 0 of its blocks, and the
  twenty row blocks tile the 100000 rows, so the output array ends as relu (h · Ws + nb · Wn + b). The product of a
  5000 × 64 block with a 64 × 64 matrix at an index is the first layer's lemma.
-/
import proofs.«120793_j14190571946097_1_alg».proof.Proof.KernelIdealFrame
import proofs.«120793_j14190571946097_1_alg».proof.Proof.Spec
import proofs.«120793_j14190571946097_1_alg».proof.Proof.Layer0Value
import Idealize.ShloMosaic.Lib.ValueIdx
import Idealize.ShloMosaic.Lib.ValueLayout
import Idealize.ShloMosaic.Lib.Pipeline.Value
import Idealize.ShloMosaic.PureOps.Ideal.Laws

set_option maxRecDepth 16384
noncomputable section

namespace Cert.KernelIdeal.Layer1
open Idealize.ShloMosaic Idealize.ShloMosaic.TcCoe Idealize.ShloMosaic.ValueIdx Idealize.SL.Sem Cert.KernelIdeal Cert.KernelIdeal.Gen
open Idealize.ShloMosaic.Pipeline (Dat)
open Cert.KernelIdeal.Layer0 (prod_at zero_off1 zero_off2)

/-! ## The body's arithmetic at an index -/

/-- Entry (p, j) of what one grid point computes from its five loaded blocks. Both row blocks pass through a cast
    to their own shape, which changes nothing; the rounding casts are identities over the extended reals; the row
    cast and the row broadcast read the bias at j; the final maximum is against the zero word. -/
theorem body_at (h nb : Vec Ideal S5000x64 .f32) (ws wn : Vec Ideal S64x64 .f32) (b : Vec Ideal S64 .f32) (p : Fin 5000) (j : Fin 64) :
    k1_pay1 (F := Ideal) h nb ws wn b (ix2 p j)
      = max (((∑ k : Fin 64, h (ix2 p k) * ws (ix2 k j)) + ∑ k : Fin 64, nb (ix2 p k) * wn (ix2 k j)) + b (ix1 j)) 0 := by
  unfold k1_pay1
  rw [maximumf_apply, addf_apply, addf_apply, prod_at, prod_at, broadcast_apply, broadcastTo_1b_ab_apply, shapeCast_a_1a_apply, shapeCast_self, shapeCast_self]
  simp only [truncf_apply]
  show max _ (Ideal.ofBits .f32 0x00000000#32) = _
  rw [Ideal.ofBits_zero_f32]

/-! ## From the blocks to the array -/

variable (V : (c : Dev nD) → (b : Ref sig .tc) → Buf (Elt Ideal) ((c : Thread nD τ).loc b))

/-- The block index maps over the twenty grid points: the row-blocked windows (first-layer output, its neighbour
    means, this layer's output) sit at block row t and block column 0; the weights and the bias sit at block 0 at
    every point. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0
    ∧ t.val < 20 :=
  (by decide +kernel : ∀ t : Fin grid1.N, _)

/-- Row p of the hidden-feature block at point t is row 5000·t + p of the first layer's output. -/
theorem hid_block (c : Dev nD) (t : Fin cfg1.N) (p : Fin 5000) (k : Fin 64) (r : Fin 100000) (hr : r.val = 5000 * t.val + p.val) :
    (iblk1 V c 0 t : Vec Ideal S5000x64 .f32) (ix2 p k) = (V c main_v19 : S100000x64.Idx → EReal) (ix2 r k) := by
  obtain ⟨e0, e1, -⟩ := block_indices t
  show V c main_v19 (((cfg1.win 0).blk t).view.emb (ix2 p k)) = V c main_v19 (ix2 r k)
  refine congrArg (V c main_v19) ?_
  funext a; apply Fin.ext
  match a with
  | ⟨0, _⟩ => show win1_0.index t (0 : Fin 2) * 5000 + 1 * p.val = r.val; omega
  | ⟨1, _⟩ => show win1_0.index t (1 : Fin 2) * 64 + 1 * k.val = k.val; omega

/-- Row p of the neighbour-mean block at point t is row 5000·t + p of the hidden features' neighbour means. -/
theorem nbr_block (c : Dev nD) (t : Fin cfg1.N) (p : Fin 5000) (k : Fin 64) (r : Fin 100000) (hr : r.val = 5000 * t.val + p.val) :
    (iblk1 V c 1 t : Vec Ideal S5000x64 .f32) (ix2 p k) = (V c main_v31 : S100000x64.Idx → EReal) (ix2 r k) := by
  obtain ⟨-, -, e0, e1, -⟩ := block_indices t
  show V c main_v31 (((cfg1.win 1).blk t).view.emb (ix2 p k)) = V c main_v31 (ix2 r k)
  refine congrArg (V c main_v31) ?_
  funext a; apply Fin.ext
  match a with
  | ⟨0, _⟩ => show win1_1.index t (0 : Fin 2) * 5000 + 1 * p.val = r.val; omega
  | ⟨1, _⟩ => show win1_1.index t (1 : Fin 2) * 64 + 1 * k.val = k.val; omega

/-- The self weights' block is the whole weight matrix at every point. -/
theorem ws_block (c : Dev nD) (t : Fin cfg1.N) (k j : Fin 64) :
    (iblk1 V c 2 t : Vec Ideal S64x64 .f32) (ix2 k j) = (V c main_arg8 : S64x64.Idx → EReal) (ix2 k j) := by
  obtain ⟨-, -, -, -, e0, e1, -⟩ := block_indices t
  show V c main_arg8 (((cfg1.win 2).blk t).view.emb (ix2 k j)) = V c main_arg8 (ix2 k j)
  refine congrArg (V c main_arg8) ?_
  funext a; apply Fin.ext
  match a with
  | ⟨0, _⟩ => show win1_2.index t (0 : Fin 2) * 64 + 1 * k.val = k.val; omega
  | ⟨1, _⟩ => show win1_2.index t (1 : Fin 2) * 64 + 1 * j.val = j.val; omega

/-- The neighbour weights' block is the whole weight matrix at every point. -/
theorem wn_block (c : Dev nD) (t : Fin cfg1.N) (k j : Fin 64) :
    (iblk1 V c 3 t : Vec Ideal S64x64 .f32) (ix2 k j) = (V c main_arg9 : S64x64.Idx → EReal) (ix2 k j) := by
  obtain ⟨-, -, -, -, -, -, e0, e1, -⟩ := block_indices t
  show V c main_arg9 (((cfg1.win 3).blk t).view.emb (ix2 k j)) = V c main_arg9 (ix2 k j)
  refine congrArg (V c main_arg9) ?_
  funext a; apply Fin.ext
  match a with
  | ⟨0, _⟩ => show win1_3.index t (0 : Fin 2) * 64 + 1 * k.val = k.val; omega
  | ⟨1, _⟩ => show win1_3.index t (1 : Fin 2) * 64 + 1 * j.val = j.val; omega

/-- The bias block is the whole bias row at every point. -/
theorem bias_block (c : Dev nD) (t : Fin cfg1.N) (j : Fin 64) :
    (iblk1 V c 4 t : Vec Ideal S64 .f32) (ix1 j) = (V c main_arg10 : S64.Idx → EReal) (ix1 j) := by
  obtain ⟨-, -, -, -, -, -, -, -, e0, -⟩ := block_indices t
  show V c main_arg10 (((cfg1.win 4).blk t).view.emb (ix1 j)) = V c main_arg10 (ix1 j)
  refine congrArg (V c main_arg10) ?_
  funext a; apply Fin.ext
  match a with
  | ⟨0, _⟩ => show win1_4.index t (0 : Fin 1) * 64 + 1 * j.val = j.val; omega

/-- Entry (p, j) of the output block at point t sits at row 5000·t + p, column j of the output matrix. -/
theorem out_block_index (t : Fin cfg1.N) (p : Fin 5000) (j : Fin 64) (r : Fin 100000) (hr : r.val = 5000 * t.val + p.val) :
    ((cfg1.win 5).blk t).view.emb (ix2 p j) = (ix2 r j : S100000x64.Idx) := by
  obtain ⟨-, -, -, -, -, -, -, -, -, e0, e1, -⟩ := block_indices t
  funext a; apply Fin.ext
  match a with
  | ⟨0, _⟩ => show win1_5.index t (0 : Fin 2) * 5000 + 1 * p.val = r.val; omega
  | ⟨1, _⟩ => show win1_5.index t (1 : Fin 2) * 64 + 1 * j.val = j.val; omega

/-- What point t writes back is block t of the layer's matrix. -/
theorem flushed_eq (c : Dev nD) (t : Fin cfg1.N) :
    (dat1 (F := Ideal) V c).flushed 5 t
      = ((cfg1.win 5).blk t).view.read (Elt Ideal) (Cert.Spec.sage (V c main_v19) (V c main_v31) (V c main_arg8) (V c main_arg9) (V c main_arg10)) := by
  show (cfg1.win 5).cut (grid1.coords t) ((dat1 (F := Ideal) V c).after 5 t) = _
  rw [after1_5]
  unfold out1_5
  rw [View.canon_unit_zero zero_off2]
  simp only [View.ld_unit_zero (S := S5000x64) zero_off2, View.ld_unit_zero (S := S64x64) zero_off2, View.ld_unit_zero (S := S64) zero_off1]
  have ht : t.val < 20 := (block_indices t).2.2.2.2.2.2.2.2.2.2.2
  funext y
  obtain ⟨p, j, rfl⟩ : ∃ (p : Fin 5000) (j : Fin 64), y = ix2 p j := ⟨y 0, y 1, eq_ix2 y⟩
  have hr : (⟨5000 * t.val + p.val, by have := p.isLt; omega⟩ : Fin 100000).val = 5000 * t.val + p.val := rfl
  refine (body_at (iblk1 V c 0 t) (iblk1 V c 1 t) (iblk1 V c 2 t) (iblk1 V c 3 t) (iblk1 V c 4 t) p j).trans ?_
  show _ = Cert.Spec.sage (V c main_v19) (V c main_v31) (V c main_arg8) (V c main_arg9) (V c main_arg10) (((cfg1.win 5).blk t).view.emb (ix2 p j))
  rw [out_block_index t p j _ hr, Cert.Spec.sage_apply]
  unfold Cert.Spec.sageAt
  refine congrArg₂ max (congrArg₂ (· + ·) (congrArg₂ (· + ·) (Finset.sum_congr rfl fun k _ => ?_) (Finset.sum_congr rfl fun k _ => ?_)) ?_) rfl
  · exact congrArg₂ (· * ·) (hid_block V c t p k _ hr) (ws_block V c t k j)
  · exact congrArg₂ (· * ·) (nbr_block V c t p k _ hr) (wn_block V c t k j)
  · exact bias_block V c t j

/-- An index of the output matrix is in point t's block iff each coordinate is in the block's range on its axis. -/
theorem mem_block (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v32).slice (win1_5.rect t)).set ↔ _
  rw [View.set_slice_whole, Rect.mem_set_unit]
  exact Iff.rfl

/-- Row r lies in the block of point r / 5000: the twenty blocks tile the matrix. -/
theorem cover (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 20 := by decide
  let t : Fin cfg1.N := ⟨(i 0).val / 5000, by rw [hN]; omega⟩
  obtain ⟨-, -, -, -, -, -, -, -, -, e0, e1, -⟩ := block_indices t
  have tv : t.val = (i 0).val / 5000 := rfl
  refine ⟨t, flush1_5 t, ?_⟩
  rw [mem_block]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- The output array after the region: relu (h · Ws + nb · Wn + b) of the arrays the region reads. -/
theorem arr_final (c : Dev nD) :
    (dat1 (F := Ideal) V c).arrAt 5 cfg1.N
      = Cert.Spec.sage (V c main_v19) (V c main_v31) (V c main_arg8) (V c main_arg9) (V c main_arg10) :=
  (dat1 (F := Ideal) V c).arrAt_eq_of_cover 5 _ (fun t _ => flushed_eq V c t) cover

end Cert.KernelIdeal.Layer1

end
-- ==== Proof.HeadValue.lean ====
/-
  The pair head's region, read as one function of the arrays it reads.

  Each of the fifty grid points takes a block of 10000 pairs: rows 10000·t … 10000·t + 9999 of the two gathered
  matrices h1, h2, together with the three 64 × 64 weight blocks, the bias of 64, the 64 × 2 weight and the bias of 2,
  all whole. Its body forms relu (h1 · Wa + h2 · Wb + |h1 − h2| · Wc + c1) · W2 + c2 on the block. Read at an index,
  every product is a sum over the 64 contracted coordinates, so entry (p, o) of the block stored at point t is the
  head's entry (10000·t + p, o); the fifty blocks tile the 500000 rows, so the output array ends holding the head.
-/
import proofs.«120793_j14190571946097_1_alg».proof.Proof.KernelIdealFrame
import proofs.«120793_j14190571946097_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384
noncomputable section
namespace Cert.KernelIdeal.Head
open Idealize.ShloMosaic Idealize.ShloMosaic.TcCoe Idealize.ShloMosaic.ValueIdx Idealize.SL.Sem Cert.KernelIdeal Cert.KernelIdeal.Gen
open Idealize.ShloMosaic.Pipeline (Dat)

/-! ## The two contractions at an index

Both contract the left operand's second axis with the right operand's first; the four lemmas per record say which
coordinate of which operand an output index and a contraction index name. -/

theorem lhs_hid_0 (i : S10000x64.Idx) (q : Cert.KernelIdeal.dot_S10000x64_S64x64_S10000x64_1_0_0_1_n_n.contr.Idx) :
    (Cert.KernelIdeal.dot_S10000x64_S64x64_S10000x64_1_0_0_1_n_n.lhsIdx i q 0).val = (i 0).val := by
  unfold DotDims.lhsIdx
  rw [dif_neg (show ¬(0 : Fin S10000x64.rank) ∈ Cert.KernelIdeal.dot_S10000x64_S64x64_S10000x64_1_0_0_1_n_n.lhsBatch by decide), dif_pos (show (0 : Fin S10000x64.rank) ∈ Cert.KernelIdeal.dot_S10000x64_S64x64_S10000x64_1_0_0_1_n_n.lhsNonContracting by decide)]
  rfl
theorem lhs_hid_1 (i : S10000x64.Idx) (q : Cert.KernelIdeal.dot_S10000x64_S64x64_S10000x64_1_0_0_1_n_n.contr.Idx) :
    (Cert.KernelIdeal.dot_S10000x64_S64x64_S10000x64_1_0_0_1_n_n.lhsIdx i q 1).val = (q ⟨0, by decide⟩).val :=
  Cert.KernelIdeal.dot_S10000x64_S64x64_S10000x64_1_0_0_1_n_n.lhsIdx_val_of_single rfl i q
theorem rhs_hid_0 (i : S10000x64.Idx) (q : Cert.KernelIdeal.dot_S10000x64_S64x64_S10000x64_1_0_0_1_n_n.contr.Idx) :
    (Cert.KernelIdeal.dot_S10000x64_S64x64_S10000x64_1_0_0_1_n_n.rhsIdx i q 0).val = (q ⟨0, by decide⟩).val :=
  Cert.KernelIdeal.dot_S10000x64_S64x64_S10000x64_1_0_0_1_n_n.rhsIdx_val_of_single rfl i q
theorem rhs_hid_1 (i : S10000x64.Idx) (q : Cert.KernelIdeal.dot_S10000x64_S64x64_S10000x64_1_0_0_1_n_n.contr.Idx) :
    (Cert.KernelIdeal.dot_S10000x64_S64x64_S10000x64_1_0_0_1_n_n.rhsIdx i q 1).val = (i 1).val := by
  unfold DotDims.rhsIdx
  rw [dif_neg (show ¬(1 : Fin S64x64.rank) ∈ Cert.KernelIdeal.dot_S10000x64_S64x64_S10000x64_1_0_0_1_n_n.rhsBatch by decide), dif_pos (show (1 : Fin S64x64.rank) ∈ Cert.KernelIdeal.dot_S10000x64_S64x64_S10000x64_1_0_0_1_n_n.rhsNonContracting by decide)]
  rfl

theorem lhs_out_0 (i : S10000x2.Idx) (q : Cert.KernelIdeal.dot_S10000x64_S64x2_S10000x2_1_0_0_1_n_n.contr.Idx) :
    (Cert.KernelIdeal.dot_S10000x64_S64x2_S10000x2_1_0_0_1_n_n.lhsIdx i q 0).val = (i 0).val := by
  unfold DotDims.lhsIdx
  rw [dif_neg (show ¬(0 : Fin S10000x64.rank) ∈ Cert.KernelIdeal.dot_S10000x64_S64x2_S10000x2_1_0_0_1_n_n.lhsBatch by decide), dif_pos (show (0 : Fin S10000x64.rank) ∈ Cert.KernelIdeal.dot_S10000x64_S64x2_S10000x2_1_0_0_1_n_n.lhsNonContracting by decide)]
  rfl
theorem lhs_out_1 (i : S10000x2.Idx) (q : Cert.KernelIdeal.dot_S10000x64_S64x2_S10000x2_1_0_0_1_n_n.contr.Idx) :
    (Cert.KernelIdeal.dot_S10000x64_S64x2_S10000x2_1_0_0_1_n_n.lhsIdx i q 1).val = (q ⟨0, by decide⟩).val :=
  Cert.KernelIdeal.dot_S10000x64_S64x2_S10000x2_1_0_0_1_n_n.lhsIdx_val_of_single rfl i q
theorem rhs_out_0 (i : S10000x2.Idx) (q : Cert.KernelIdeal.dot_S10000x64_S64x2_S10000x2_1_0_0_1_n_n.contr.Idx) :
    (Cert.KernelIdeal.dot_S10000x64_S64x2_S10000x2_1_0_0_1_n_n.rhsIdx i q 0).val = (q ⟨0, by decide⟩).val :=
  Cert.KernelIdeal.dot_S10000x64_S64x2_S10000x2_1_0_0_1_n_n.rhsIdx_val_of_single rfl i q
theorem rhs_out_1 (i : S10000x2.Idx) (q : Cert.KernelIdeal.dot_S10000x64_S64x2_S10000x2_1_0_0_1_n_n.contr.Idx) :
    (Cert.KernelIdeal.dot_S10000x64_S64x2_S10000x2_1_0_0_1_n_n.rhsIdx i q 1).val = (i 1).val := by
  unfold DotDims.rhsIdx
  rw [dif_neg (show ¬(1 : Fin S64x2.rank) ∈ Cert.KernelIdeal.dot_S10000x64_S64x2_S10000x2_1_0_0_1_n_n.rhsBatch by decide), dif_pos (show (1 : Fin S64x2.rank) ∈ Cert.KernelIdeal.dot_S10000x64_S64x2_S10000x2_1_0_0_1_n_n.rhsNonContracting by decide)]
  rfl

/-- A block of 10000 rows times a 64 × 64 matrix, into the zero accumulator, at entry (p, j): the row's dot product
    with the column. -/
theorem matmul_hid_apply {φ₁ φ₂ : FTy} (a : FVec Ideal S10000x64 φ₁) (w : FVec Ideal S64x64 φ₂) (p : Fin 10000) (j : Fin 64) :
    matmul Cert.KernelIdeal.dot_S10000x64_S64x64_S10000x64_1_0_0_1_n_n none a w (constant S10000x64 .f32 0x00000000#32) (ix2 p j)
      = ∑ k : Fin 64, a (ix2 p k) * w (ix2 k j) := by
  simp only [matmul]
  rw [Ideal.matmul_constant_zero_apply, ← Equiv.sum_comp (ValueIdx.contrEquiv1 Cert.KernelIdeal.dot_S10000x64_S64x64_S10000x64_1_0_0_1_n_n 64 rfl rfl).symm]
  refine Finset.sum_congr rfl fun k _ => ?_
  have hk := ValueIdx.contrEquiv1_symm_val Cert.KernelIdeal.dot_S10000x64_S64x64_S10000x64_1_0_0_1_n_n 64 rfl rfl k
  have el : Cert.KernelIdeal.dot_S10000x64_S64x64_S10000x64_1_0_0_1_n_n.lhsIdx (ix2 p j) ((ValueIdx.contrEquiv1 Cert.KernelIdeal.dot_S10000x64_S64x64_S10000x64_1_0_0_1_n_n 64 rfl rfl).symm k) = ix2 p k := funext fun ax => Fin.ext (by
    match ax with
    | ⟨0, _⟩ => exact lhs_hid_0 _ _
    | ⟨1, _⟩ => exact (lhs_hid_1 _ _).trans hk)
  have er : Cert.KernelIdeal.dot_S10000x64_S64x64_S10000x64_1_0_0_1_n_n.rhsIdx (ix2 p j) ((ValueIdx.contrEquiv1 Cert.KernelIdeal.dot_S10000x64_S64x64_S10000x64_1_0_0_1_n_n 64 rfl rfl).symm k) = ix2 k j := funext fun ax => Fin.ext (by
    match ax with
    | ⟨0, _⟩ => exact (rhs_hid_0 _ _).trans hk
    | ⟨1, _⟩ => exact rhs_hid_1 _ _)
  rw [el, er]

/-- A block of 10000 rows times a 64 × 2 matrix, into the zero accumulator, at entry (p, c). -/
theorem matmul_out_apply {φ₁ φ₂ : FTy} (a : FVec Ideal S10000x64 φ₁) (w : FVec Ideal S64x2 φ₂) (p : Fin 10000) (c : Fin 2) :
    matmul Cert.KernelIdeal.dot_S10000x64_S64x2_S10000x2_1_0_0_1_n_n none a w (constant S10000x2 .f32 0x00000000#32) (ix2 p c)
      = ∑ k : Fin 64, a (ix2 p k) * w (ix2 k c) := by
  simp only [matmul]
  rw [Ideal.matmul_constant_zero_apply, ← Equiv.sum_comp (ValueIdx.contrEquiv1 Cert.KernelIdeal.dot_S10000x64_S64x2_S10000x2_1_0_0_1_n_n 64 rfl rfl).symm]
  refine Finset.sum_congr rfl fun k _ => ?_
  have hk := ValueIdx.contrEquiv1_symm_val Cert.KernelIdeal.dot_S10000x64_S64x2_S10000x2_1_0_0_1_n_n 64 rfl rfl k
  have el : Cert.KernelIdeal.dot_S10000x64_S64x2_S10000x2_1_0_0_1_n_n.lhsIdx (ix2 p c) ((ValueIdx.contrEquiv1 Cert.KernelIdeal.dot_S10000x64_S64x2_S10000x2_1_0_0_1_n_n 64 rfl rfl).symm k) = ix2 p k := funext fun ax => Fin.ext (by
    match ax with
    | ⟨0, _⟩ => exact lhs_out_0 _ _
    | ⟨1, _⟩ => exact (lhs_out_1 _ _).trans hk)
  have er : Cert.KernelIdeal.dot_S10000x64_S64x2_S10000x2_1_0_0_1_n_n.rhsIdx (ix2 p c) ((ValueIdx.contrEquiv1 Cert.KernelIdeal.dot_S10000x64_S64x2_S10000x2_1_0_0_1_n_n 64 rfl rfl).symm k) = ix2 k c := funext fun ax => Fin.ext (by
    match ax with
    | ⟨0, _⟩ => exact (rhs_out_0 _ _).trans hk
    | ⟨1, _⟩ => exact rhs_out_1 _ _)
  rw [el, er]

/-! ## The body's arithmetic at an index -/

/-- The hidden layer of one block of pairs, as the body forms it: the three 64-column products added, the bias row
    added to every row, clamped below at zero. -/
def hidVec (a b : Vec Ideal S10000x64 .f32) (wa wb wc : Vec Ideal S64x64 .f32) (c1 : Vec Ideal S64 .f32) : FVec Ideal S10000x64 .f32 :=
  maximumf
    (addf
      (addf
        (addf
          (matmul Cert.KernelIdeal.dot_S10000x64_S64x64_S10000x64_1_0_0_1_n_n none (truncf .bf16 a bitsLt_bf16_f32) (truncf .bf16 wa bitsLt_bf16_f32) (constant S10000x64 .f32 0x00000000#32))
          (matmul Cert.KernelIdeal.dot_S10000x64_S64x64_S10000x64_1_0_0_1_n_n none (truncf .bf16 b bitsLt_bf16_f32) (truncf .bf16 wb bitsLt_bf16_f32) (constant S10000x64 .f32 0x00000000#32)))
        (matmul Cert.KernelIdeal.dot_S10000x64_S64x64_S10000x64_1_0_0_1_n_n none (truncf .bf16 (absf (subf a b)) bitsLt_bf16_f32) (truncf .bf16 wc bitsLt_bf16_f32) (constant S10000x64 .f32 0x00000000#32)))
      (broadcastTo S10000x64 (shapeCast S1x64 c1 shapeCasts_S64_S1x64) broadcasts_S1x64_S10000x64))
    (broadcast S10000x64 (Scalar.ofBits .f32 0x00000000#32))

/-- Hidden unit (p, j) of a block: the three dot products of row p against column j of the three weight blocks,
    the bias at j, and the clamp. -/
def hidAt (a b : Vec Ideal S10000x64 .f32) (wa wb wc : Vec Ideal S64x64 .f32) (c1 : Vec Ideal S64 .f32) (p : Fin 10000) (j : Fin 64) : EReal :=
  max (((((∑ k : Fin 64, a (ix2 p k) * wa (ix2 k j)) + ∑ k : Fin 64, b (ix2 p k) * wb (ix2 k j))
      + ∑ k : Fin 64, Cert.Spec.absE (a (ix2 p k) - b (ix2 p k)) * wc (ix2 k j))) + c1 (ix1 j)) 0

theorem hidVec_apply (a b : Vec Ideal S10000x64 .f32) (wa wb wc : Vec Ideal S64x64 .f32) (c1 : Vec Ideal S64 .f32) (p : Fin 10000) (j : Fin 64) :
    hidVec a b wa wb wc c1 (ix2 p j) = hidAt a b wa wb wc c1 p j := by
  unfold hidVec hidAt
  rw [maximumf_apply, addf_apply, addf_apply, addf_apply, matmul_hid_apply, matmul_hid_apply, matmul_hid_apply,
    broadcast_apply, broadcastTo_1b_ab_apply, shapeCast_a_1a_apply]
  have z : (Scalar.ofBits .f32 0x00000000#32 : Ideal .f32) = 0 := Ideal.ofBits_zero_f32
  rw [z]
  rfl

/-- The body's payload is the output layer over that hidden layer. -/
theorem pay_eq (x0 x1 : Vec Ideal S10000x64 .f32) (wa wb wc : Vec Ideal S64x64 .f32) (c1 : Vec Ideal S64 .f32) (w2 : Vec Ideal S64x2 .f32) (c2 : Vec Ideal S2 .f32) :
    k2_pay1 (F := Ideal) x0 x1 wa wb wc c1 w2 c2
      = addf (matmul Cert.KernelIdeal.dot_S10000x64_S64x2_S10000x2_1_0_0_1_n_n none (truncf .bf16 (hidVec x0 x1 wa wb wc c1) bitsLt_bf16_f32) (truncf .bf16 w2 bitsLt_bf16_f32) (constant S10000x2 .f32 0x00000000#32))
          (broadcastTo S10000x2 (shapeCast S1x2 c2 shapeCasts_S2_S1x2) broadcasts_S1x2_S10000x2) := by
  unfold k2_pay1 hidVec
  simp only [shapeCast_self]

/-- Entry (p, c) of the block the body stores: the hidden row p against column c of the second weight, plus the
    second bias at c. -/
theorem pay_apply (x0 x1 : Vec Ideal S10000x64 .f32) (wa wb wc : Vec Ideal S64x64 .f32) (c1 : Vec Ideal S64 .f32) (w2 : Vec Ideal S64x2 .f32) (c2 : Vec Ideal S2 .f32)
    (p : Fin 10000) (c : Fin 2) :
    k2_pay1 (F := Ideal) x0 x1 wa wb wc c1 w2 c2 (ix2 p c)
      = (∑ j : Fin 64, hidAt x0 x1 wa wb wc c1 p j * w2 (ix2 j c)) + c2 (ix1 c) := by
  rw [pay_eq, addf_apply, matmul_out_apply, broadcastTo_1b_ab_apply, shapeCast_a_1a_apply]
  refine congrArg (· + c2 (ix1 c)) (Finset.sum_congr rfl fun j _ => ?_)
  rw [truncf_apply, truncf_apply, hidVec_apply]

/-! ## The blocks the body reads, as rows of the arrays

At point t the two gathered-row windows sit at block row t, the weights and biases are whole at every point, and
the output window sits at block row t. -/

theorem block_indices : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 1) = 0
    ∧ win2_6.index t (0 : Fin 2) = 0 ∧ win2_6.index t (1 : Fin 2) = 0
    ∧ win2_7.index t (0 : Fin 1) = 0
    ∧ win2_8.index t (0 : Fin 2) = t.val ∧ win2_8.index t (1 : Fin 2) = 0
    ∧ t.val < 50 :=
  (by decide +kernel : ∀ t : Fin grid2.N, _)

/-- Every block row of the output is some point's. -/
theorem point_of_block : ∀ q : Fin 50, ∃ t : Fin cfg2.N, t.val = q.val :=
  (by decide +kernel : ∀ q : Fin 50, ∃ t : Fin grid2.N, t.val = q.val)

variable (V : (c : Dev nD) → (b : Ref sig .tc) → Buf (Elt Ideal) ((c : Thread nD τ).loc b))

/-- Row p of the first ends' block at point t is row 10000·t + p of the gathered array. -/
theorem block_h1 (c : Dev nD) (t : Fin cfg2.N) (p : Fin 10000) (k : Fin 64) (P : Fin 500000) (hP : P.val = 10000 * t.val + p.val) :
    (iblk2 V c 0 t : Vec Ideal S10000x64 .f32) (ix2 p k) = (V c main_v39 : S500000x64.Idx → EReal) (ix2 P k) := by
  obtain ⟨e0, e1, -⟩ := block_indices t
  show V c main_v39 (((cfg2.win 0).blk t).view.emb (ix2 p k)) = V c main_v39 (ix2 P k)
  refine congrArg (V c main_v39) (funext fun a => Fin.ext ?_)
  match a with
  | ⟨0, _⟩ => show win2_0.index t (0 : Fin 2) * 10000 + 1 * p.val = P.val; omega
  | ⟨1, _⟩ => show win2_0.index t (1 : Fin 2) * 64 + 1 * k.val = k.val; omega

/-- Row p of the second ends' block at point t is row 10000·t + p of the gathered array. -/
theorem block_h2 (c : Dev nD) (t : Fin cfg2.N) (p : Fin 10000) (k : Fin 64) (P : Fin 500000) (hP : P.val = 10000 * t.val + p.val) :
    (iblk2 V c 1 t : Vec Ideal S10000x64 .f32) (ix2 p k) = (V c main_v46 : S500000x64.Idx → EReal) (ix2 P k) := by
  obtain ⟨-, -, e0, e1, -⟩ := block_indices t
  show V c main_v46 (((cfg2.win 1).blk t).view.emb (ix2 p k)) = V c main_v46 (ix2 P k)
  refine congrArg (V c main_v46) (funext fun a => Fin.ext ?_)
  match a with
  | ⟨0, _⟩ => show win2_1.index t (0 : Fin 2) * 10000 + 1 * p.val = P.val; omega
  | ⟨1, _⟩ => show win2_1.index t (1 : Fin 2) * 64 + 1 * k.val = k.val; omega

/-- The first weight block is read whole at every point. -/
theorem block_wa (c : Dev nD) (t : Fin cfg2.N) (k j : Fin 64) :
    (iblk2 V c 2 t : Vec Ideal S64x64 .f32) (ix2 k j) = (V c main_v47 : S64x64.Idx → EReal) (ix2 k j) := by
  obtain ⟨-, -, -, -, e0, e1, -⟩ := block_indices t
  show V c main_v47 (((cfg2.win 2).blk t).view.emb (ix2 k j)) = V c main_v47 (ix2 k j)
  refine congrArg (V c main_v47) (funext fun a => Fin.ext ?_)
  match a with
  | ⟨0, _⟩ => show win2_2.index t (0 : Fin 2) * 64 + 1 * k.val = k.val; omega
  | ⟨1, _⟩ => show win2_2.index t (1 : Fin 2) * 64 + 1 * j.val = j.val; omega

/-- The second weight block is read whole at every point. -/
theorem block_wb (c : Dev nD) (t : Fin cfg2.N) (k j : Fin 64) :
    (iblk2 V c 3 t : Vec Ideal S64x64 .f32) (ix2 k j) = (V c main_v48 : S64x64.Idx → EReal) (ix2 k j) := by
  obtain ⟨-, -, -, -, -, -, e0, e1, -⟩ := block_indices t
  show V c main_v48 (((cfg2.win 3).blk t).view.emb (ix2 k j)) = V c main_v48 (ix2 k j)
  refine congrArg (V c main_v48) (funext fun a => Fin.ext ?_)
  match a with
  | ⟨0, _⟩ => show win2_3.index t (0 : Fin 2) * 64 + 1 * k.val = k.val; omega
  | ⟨1, _⟩ => show win2_3.index t (1 : Fin 2) * 64 + 1 * j.val = j.val; omega

/-- The third weight block is read whole at every point. -/
theorem block_wc (c : Dev nD) (t : Fin cfg2.N) (k j : Fin 64) :
    (iblk2 V c 4 t : Vec Ideal S64x64 .f32) (ix2 k j) = (V c main_v49 : S64x64.Idx → EReal) (ix2 k j) := by
  obtain ⟨-, -, -, -, -, -, -, -, e0, e1, -⟩ := block_indices t
  show V c main_v49 (((cfg2.win 4).blk t).view.emb (ix2 k j)) = V c main_v49 (ix2 k j)
  refine congrArg (V c main_v49) (funext fun a => Fin.ext ?_)
  match a with
  | ⟨0, _⟩ => show win2_4.index t (0 : Fin 2) * 64 + 1 * k.val = k.val; omega
  | ⟨1, _⟩ => show win2_4.index t (1 : Fin 2) * 64 + 1 * j.val = j.val; omega

/-- The first bias is read whole at every point. -/
theorem block_c1 (c : Dev nD) (t : Fin cfg2.N) (j : Fin 64) :
    (iblk2 V c 5 t : Vec Ideal S64 .f32) (ix1 j) = (V c main_arg12 : S64.Idx → EReal) (ix1 j) := by
  obtain ⟨-, -, -, -, -, -, -, -, -, -, e0, -⟩ := block_indices t
  show V c main_arg12 (((cfg2.win 5).blk t).view.emb (ix1 j)) = V c main_arg12 (ix1 j)
  refine congrArg (V c main_arg12) (funext fun a => Fin.ext ?_)
  match a with
  | ⟨0, _⟩ => show win2_5.index t (0 : Fin 1) * 64 + 1 * j.val = j.val; omega

/-- The second weight matrix is read whole at every point. -/
theorem block_w2 (c : Dev nD) (t : Fin cfg2.N) (j : Fin 64) (o : Fin 2) :
    (iblk2 V c 6 t : Vec Ideal S64x2 .f32) (ix2 j o) = (V c main_arg13 : S64x2.Idx → EReal) (ix2 j o) := by
  obtain ⟨-, -, -, -, -, -, -, -, -, -, -, e0, e1, -⟩ := block_indices t
  show V c main_arg13 (((cfg2.win 6).blk t).view.emb (ix2 j o)) = V c main_arg13 (ix2 j o)
  refine congrArg (V c main_arg13) (funext fun a => Fin.ext ?_)
  match a with
  | ⟨0, _⟩ => show win2_6.index t (0 : Fin 2) * 64 + 1 * j.val = j.val; omega
  | ⟨1, _⟩ => show win2_6.index t (1 : Fin 2) * 2 + 1 * o.val = o.val; omega

/-- The second bias is read whole at every point. -/
theorem block_c2 (c : Dev nD) (t : Fin cfg2.N) (o : Fin 2) :
    (iblk2 V c 7 t : Vec Ideal S2 .f32) (ix1 o) = (V c main_arg14 : S2.Idx → EReal) (ix1 o) := by
  obtain ⟨-, -, -, -, -, -, -, -, -, -, -, -, -, e0, -⟩ := block_indices t
  show V c main_arg14 (((cfg2.win 7).blk t).view.emb (ix1 o)) = V c main_arg14 (ix1 o)
  refine congrArg (V c main_arg14) (funext fun a => Fin.ext ?_)
  match a with
  | ⟨0, _⟩ => show win2_7.index t (0 : Fin 1) * 2 + 1 * o.val = o.val; omega

/-- Entry (p, o) of the output block at point t is entry (10000·t + p, o) of the output array. -/
theorem block_out (t : Fin cfg2.N) (p : Fin 10000) (o : Fin 2) (P : Fin 500000) (hP : P.val = 10000 * t.val + p.val) :
    ((cfg2.win 8).blk t).view.emb (ix2 p o) = (ix2 P o : S500000x2.Idx) := by
  obtain ⟨-, -, -, -, -, -, -, -, -, -, -, -, -, -, e0, e1, -⟩ := block_indices t
  refine funext fun a => Fin.ext ?_
  match a with
  | ⟨0, _⟩ => show win2_8.index t (0 : Fin 2) * 10000 + 1 * p.val = P.val; omega
  | ⟨1, _⟩ => show win2_8.index t (1 : Fin 2) * 2 + 1 * o.val = o.val; omega

/-! ## From the blocks to the array -/

theorem zero_offsets2 : (![0, 0] : Fin 2 → Nat) = fun _ => 0 := funext fun a => by fin_cases a <;> rfl
theorem zero_offsets1 : (![0] : Fin 1 → Nat) = fun _ => 0 := funext fun a => by fin_cases a <;> rfl

/-- The block-level hidden unit (p, j) at point t is hidden unit (10000·t + p, j) of the whole head. -/
theorem hid_block (c : Dev nD) (t : Fin cfg2.N) (p : Fin 10000) (j : Fin 64) (P : Fin 500000) (hP : P.val = 10000 * t.val + p.val) :
    hidAt (iblk2 V c 0 t) (iblk2 V c 1 t) (iblk2 V c 2 t) (iblk2 V c 3 t) (iblk2 V c 4 t) (iblk2 V c 5 t) p j
      = Cert.Spec.hidSplitAt (V c main_v39) (V c main_v46) (V c main_v47) (V c main_v48) (V c main_v49) (V c main_arg12) P j := by
  unfold hidAt Cert.Spec.hidSplitAt
  rw [block_c1 V c t j]
  simp only [block_h1 V c t p _ P hP, block_h2 V c t p _ P hP, block_wa V c t, block_wb V c t, block_wc V c t]

/-- What point t writes back is block t of the head's output, as a function of the arrays the region reads. -/
theorem flushed_eq (c : Dev nD) (t : Fin cfg2.N) :
    (dat2 (F := Ideal) V c).flushed 8 t = ((cfg2.win 8).blk t).view.read (Elt Ideal)
      (Cert.Spec.headSplit (V c main_v39) (V c main_v46) (V c main_v47) (V c main_v48) (V c main_v49)
        (V c main_arg12) (V c main_arg13) (V c main_arg14)) := by
  show (cfg2.win 8).cut (grid2.coords t) ((dat2 (F := Ideal) V c).after 8 t) = _
  rw [after2_8]
  unfold out2_8
  rw [View.canon_unit_zero zero_offsets2]
  simp only [View.ld_unit_zero (S := S10000x64) zero_offsets2, View.ld_unit_zero (S := S64x64) zero_offsets2,
    View.ld_unit_zero (S := S64) zero_offsets1, View.ld_unit_zero (S := S64x2) zero_offsets2,
    View.ld_unit_zero (S := S2) zero_offsets1]
  refine funext fun (y : S10000x2.Idx) => ?_
  obtain ⟨p, o, rfl⟩ : ∃ (p : Fin 10000) (o : Fin 2), y = ix2 p o := ⟨y 0, y 1, eq_ix2 y⟩
  have ht : t.val < 50 := (block_indices t).2.2.2.2.2.2.2.2.2.2.2.2.2.2.2.2
  have hp : p.val < 10000 := p.isLt
  let P : Fin 500000 := ⟨10000 * t.val + p.val, by omega⟩
  have hP : P.val = 10000 * t.val + p.val := rfl
  show k2_pay1 (F := Ideal) (iblk2 V c 0 t) (iblk2 V c 1 t) (iblk2 V c 2 t) (iblk2 V c 3 t) (iblk2 V c 4 t) (iblk2 V c 5 t) (iblk2 V c 6 t) (iblk2 V c 7 t) (ix2 p o)
    = Cert.Spec.headSplit (V c main_v39) (V c main_v46) (V c main_v47) (V c main_v48) (V c main_v49)
        (V c main_arg12) (V c main_arg13) (V c main_arg14) (((cfg2.win 8).blk t).view.emb (ix2 p o))
  refine (pay_apply _ _ _ _ _ _ _ _ p o).trans ?_
  rw [block_out t p o P hP, Cert.Spec.headSplit_apply]
  unfold Cert.Spec.outAt
  rw [block_c2 V c t o]
  refine congrArg (· + _) (Finset.sum_congr rfl fun j _ => ?_)
  rw [block_w2 V c t j o, hid_block V c t p j P hP]

/-- An index of the output array is in point t's block iff each coordinate is in the block's range on its axis. -/
theorem mem_block (t : Fin cfg2.N) (i : S500000x2.Idx) :
    i ∈ ((cfg2.win 8).blk t).view.set ↔ ∀ a : Fin 2, win2_8.index t a * S10000x2.size a ≤ (i a).val ∧ (i a).val < win2_8.index t a * S10000x2.size a + S10000x2.size a := by
  show i ∈ ((View.whole main_v50).slice (win2_8.rect t)).set ↔ _
  rw [View.set_slice_whole, Rect.mem_set_unit]
  exact Iff.rfl

/-- The fifty blocks of 10000 rows tile the 500000 rows: row r lies in the block of point r / 10000. -/
theorem covered (i : S500000x2.Idx) :
    ∃ t : Fin cfg2.N, (cfg2.win 8).flush t = true ∧ i ∈ ((cfg2.win 8).blk t).view.set := by
  have hi0 : (i 0).val < 500000 := (i 0).isLt
  have hi1 : (i 1).val < 2 := (i 1).isLt
  obtain ⟨t, ht⟩ := point_of_block ⟨(i 0).val / 10000, by omega⟩
  have ht' : t.val = (i 0).val / 10000 := ht
  obtain ⟨-, -, -, -, -, -, -, -, -, -, -, -, -, -, e0, e1, -⟩ := block_indices t
  refine ⟨t, flush2_8 t, ?_⟩
  rw [mem_block]
  intro a
  match a with
  | ⟨0, _⟩ => show win2_8.index t (0 : Fin 2) * 10000 ≤ (i 0).val ∧ (i 0).val < win2_8.index t (0 : Fin 2) * 10000 + 10000; omega
  | ⟨1, _⟩ => show win2_8.index t (1 : Fin 2) * 2 ≤ (i 1).val ∧ (i 1).val < win2_8.index t (1 : Fin 2) * 2 + 2; omega

/-- The output array after the region: the head's output, entry by entry, of the arrays the region reads. -/
theorem arr_final (c : Dev nD) :
    (dat2 (F := Ideal) V c).arrAt 8 cfg2.N
      = Cert.Spec.headSplit (V c main_v39) (V c main_v46) (V c main_v47) (V c main_v48) (V c main_v49)
          (V c main_arg12) (V c main_arg13) (V c main_arg14) :=
  (dat2 (F := Ideal) V c).arrAt_eq_of_cover 8 _ (fun t _ => flushed_eq V c t) covered

end Cert.KernelIdeal.Head
end
-- ==== Proof.Thread.lean ====
/-
  The kernel program's result buffer as the network of Spec.lean, read back through the program's six segments.

  The program is three host stretches and three kernel regions in alternation. A stretch leaves in each buffer it
  writes the operations' value of the buffers before it, and leaves every other buffer alone; a region leaves in its
  output array one whole-array function of the arrays it reads (taken here as hypotheses, one per region) and leaves
  every buffer that is not one of its arrays alone. Reading the last boundary's contents at the result buffer backwards
  through these six steps gives: the pair head of the rows gathered from H2, where H2 is the second layer of H1 and H1
  the first layer of the input features, each layer taking the neighbour mean of its own input. The head arrives in its
  three-block arrangement over three row slices of W1, and the law of Spec.lean turns it into the concatenated one.
-/
import proofs.«120793_j14190571946097_1_alg».proof.Proof.KernelIdealFrame
import proofs.«120793_j14190571946097_1_alg».proof.Proof.Spec
import proofs.«120793_j14190571946097_1_alg».proof.Proof.Glue
import Idealize.ShloMosaic.Lib.StableHlo.Run
import Idealize.ShloMosaic.Lib.Pipeline.Value
import Idealize.ShloMosaic.Lib.ValueIdx

set_option maxRecDepth 16384

noncomputable section

namespace Cert.KernelIdeal.Thread

open Idealize.ShloMosaic Idealize.ShloMosaic.TcCoe Idealize.ShloMosaic.ValueIdx Idealize.SL.Sem
open Cert.KernelIdeal Cert.KernelIdeal.Gen

/-- "No operation of these stretches writes this buffer", decided operation by operation. -/
macro "unwritten" : tactic => `(tactic| (
  refine List.forall_iff_forall_mem.mp ?_
  simp only [hostOps0, hostOps1, hostOps2, List.Forall, StableHlo.nullary_writes, StableHlo.unary_writes,
    StableHlo.binary_writes, StableHlo.ternary_writes, Finset.mem_singleton]
  repeat' apply And.intro
  all_goals exact StableHlo.devRef_ne_of_ne (by decide)))

variable (m : (ℓ : Loc nD τ sig) → Buf (Elt Ideal) ℓ) (ρ : Dev nD → PrngReg) (c : Dev nD)

/-! ## Buffers that ride along unchanged -/

section Keep
variable {b : Ref sig .tc}

/-- Through the first stretch. -/
theorem keep1 (h0 : ∀ op ∈ (hostOps0 : List (HloOp τ sig (Elt Ideal))), Proc.devRef .tc b ∉ op.writes := by unwritten) :
    W1 m ρ c (Proc.devRef .tc b) = W0 m ρ c (Proc.devRef .tc b) :=
  StableHlo.after_of_forall_not_mem _ _ h0

/-- Through the first region too, for a buffer that is none of its arrays. -/
theorem keep2 (h0 : ∀ op ∈ (hostOps0 : List (HloOp τ sig (Elt Ideal))), Proc.devRef .tc b ∉ op.writes := by unwritten)
    (n0 : ∀ w, Pipeline.arrRef spec0 w ≠ b := by decide) :
    W2 m ρ c (Proc.devRef .tc b) = W0 m ρ c (Proc.devRef .tc b) :=
  (W2_of_ne m ρ c b n0).trans (keep1 m ρ c h0)

/-- Through the second stretch. -/
theorem keep3 (h0 : ∀ op ∈ (hostOps0 : List (HloOp τ sig (Elt Ideal))), Proc.devRef .tc b ∉ op.writes := by unwritten)
    (n0 : ∀ w, Pipeline.arrRef spec0 w ≠ b := by decide)
    (h1 : ∀ op ∈ (hostOps1 : List (HloOp τ sig (Elt Ideal))), Proc.devRef .tc b ∉ op.writes := by unwritten) :
    W3 m ρ c (Proc.devRef .tc b) = W0 m ρ c (Proc.devRef .tc b) :=
  (StableHlo.after_of_forall_not_mem _ _ h1).trans (keep2 m ρ c h0 n0)

/-- Through the second region. -/
theorem keep4 (h0 : ∀ op ∈ (hostOps0 : List (HloOp τ sig (Elt Ideal))), Proc.devRef .tc b ∉ op.writes := by unwritten)
    (n0 : ∀ w, Pipeline.arrRef spec0 w ≠ b := by decide)
    (h1 : ∀ op ∈ (hostOps1 : List (HloOp τ sig (Elt Ideal))), Proc.devRef .tc b ∉ op.writes := by unwritten)
    (n1 : ∀ w, Pipeline.arrRef spec1 w ≠ b := by decide) :
    W4 m ρ c (Proc.devRef .tc b) = W0 m ρ c (Proc.devRef .tc b) :=
  (W4_of_ne m ρ c b n1).trans (keep3 m ρ c h0 n0 h1)

/-- Through the third stretch. -/
theorem keep5 (h0 : ∀ op ∈ (hostOps0 : List (HloOp τ sig (Elt Ideal))), Proc.devRef .tc b ∉ op.writes := by unwritten)
    (n0 : ∀ w, Pipeline.arrRef spec0 w ≠ b := by decide)
    (h1 : ∀ op ∈ (hostOps1 : List (HloOp τ sig (Elt Ideal))), Proc.devRef .tc b ∉ op.writes := by unwritten)
    (n1 : ∀ w, Pipeline.arrRef spec1 w ≠ b := by decide)
    (h2 : ∀ op ∈ (hostOps2 : List (HloOp τ sig (Elt Ideal))), Proc.devRef .tc b ∉ op.writes := by unwritten) :
    W5 m ρ c (Proc.devRef .tc b) = W0 m ρ c (Proc.devRef .tc b) :=
  (StableHlo.after_of_forall_not_mem _ _ h2).trans (keep4 m ρ c h0 n0 h1 n1)

end Keep

/-! ## The first layer -/

/-- The neighbour means the first region is entered with. -/
theorem entry0_nb : V1 m ρ c main_v18 = Cert.Glue.nbr (m ((c : Thread nD τ).loc main_arg1)) (m ((c : Thread nD τ).loc main_arg2)) (m ((c : Thread nD τ).loc main_arg0)) := by
  show StableHlo.after hostOps0 (W0 m ρ c) (Proc.devRef .tc main_v18) = _
  dsimp only [hostOps0]
  after_results_simp
  rfl

/-- The clamped in-degree column, computed by the first stretch and read again by the second. -/
theorem deg_after0 : W1 m ρ c (Proc.devRef .tc main_v6) = Cert.Glue.degCol (m ((c : Thread nD τ).loc main_arg2)) := by
  show StableHlo.after hostOps0 (W0 m ρ c) (Proc.devRef .tc main_v6) = _
  dsimp only [hostOps0]
  after_results
  rfl

variable (layer0 : ∀ (V : (c : Dev nD) → (b : Ref sig .tc) → Buf (Elt Ideal) ((c : Thread nD τ).loc b)) (c : Dev nD),
    (dat0 (F := Ideal) V c).arrAt 5 cfg0.N
      = Cert.Spec.sage (V c main_arg0) (V c main_v18) (V c main_arg5) (V c main_arg6) (V c main_arg7))

/-- The first layer's features. -/
abbrev H1 : Cert.Spec.Mat 100000 64 :=
  Cert.Spec.sage (m ((c : Thread nD τ).loc main_arg0)) (Cert.Glue.nbr (m ((c : Thread nD τ).loc main_arg1)) (m ((c : Thread nD τ).loc main_arg2)) (m ((c : Thread nD τ).loc main_arg0))) (m ((c : Thread nD τ).loc main_arg5)) (m ((c : Thread nD τ).loc main_arg6)) (m ((c : Thread nD τ).loc main_arg7))

include layer0 in
/-- After the first region its output array holds the first layer's features. -/
theorem after_region0 : W2 m ρ c (Proc.devRef .tc main_v19) = H1 m c := by
  have e := (W2_arr m ρ c 5).trans (layer0 (V1 m ρ) c)
  rw [entry0_nb m ρ c] at e
  have e0 : V1 m ρ c main_arg0 = (m ((c : Thread nD τ).loc main_arg0)) := keep1 m ρ c
  have e5 : V1 m ρ c main_arg5 = (m ((c : Thread nD τ).loc main_arg5)) := keep1 m ρ c
  have e6 : V1 m ρ c main_arg6 = (m ((c : Thread nD τ).loc main_arg6)) := keep1 m ρ c
  have e7 : V1 m ρ c main_arg7 = (m ((c : Thread nD τ).loc main_arg7)) := keep1 m ρ c
  rw [e0, e5, e6, e7] at e
  exact e

/-! ## The second layer -/

include layer0 in
/-- The neighbour means the second region is entered with: those of the first layer's features. -/
theorem entry1_nb : V3 m ρ c main_v31 = Cert.Glue.nbr (m ((c : Thread nD τ).loc main_arg1)) (m ((c : Thread nD τ).loc main_arg2)) (H1 m c) := by
  show StableHlo.after hostOps1 (W2 m ρ c) (Proc.devRef .tc main_v31) = _
  dsimp only [hostOps1]
  after_results
  have e1 : W2 m ρ c (Proc.devRef .tc main_arg1) = (m ((c : Thread nD τ).loc main_arg1)) := keep2 m ρ c
  have e2 : W2 m ρ c (Proc.devRef .tc main_arg2) = (m ((c : Thread nD τ).loc main_arg2)) := keep2 m ρ c
  have e6 : W2 m ρ c (Proc.devRef .tc main_v6) = Cert.Glue.degCol (m ((c : Thread nD τ).loc main_arg2)) :=
    (W2_of_ne m ρ c main_v6 (by decide)).trans (deg_after0 m ρ c)
  rw [e1, e2, e6, after_region0 m ρ c layer0]
  rfl

variable (layer1 : ∀ (V : (c : Dev nD) → (b : Ref sig .tc) → Buf (Elt Ideal) ((c : Thread nD τ).loc b)) (c : Dev nD),
    (dat1 (F := Ideal) V c).arrAt 5 cfg1.N
      = Cert.Spec.sage (V c main_v19) (V c main_v31) (V c main_arg8) (V c main_arg9) (V c main_arg10))

/-- The second layer's features. -/
abbrev H2 : Cert.Spec.Mat 100000 64 :=
  Cert.Spec.sage (H1 m c) (Cert.Glue.nbr (m ((c : Thread nD τ).loc main_arg1)) (m ((c : Thread nD τ).loc main_arg2)) (H1 m c)) (m ((c : Thread nD τ).loc main_arg8)) (m ((c : Thread nD τ).loc main_arg9)) (m ((c : Thread nD τ).loc main_arg10))

include layer0 layer1 in
/-- After the second region its output array holds the second layer's features. -/
theorem after_region1 : W4 m ρ c (Proc.devRef .tc main_v32) = H2 m c := by
  have e := (W4_arr m ρ c 5).trans (layer1 (V3 m ρ) c)
  rw [entry1_nb m ρ c layer0] at e
  have e19 : V3 m ρ c main_v19 = H1 m c :=
    (StableHlo.after_of_forall_not_mem (b := Proc.devRef .tc main_v19) _ _ (by unwritten)).trans (after_region0 m ρ c layer0)
  have e8 : V3 m ρ c main_arg8 = (m ((c : Thread nD τ).loc main_arg8)) := keep3 m ρ c
  have e9 : V3 m ρ c main_arg9 = (m ((c : Thread nD τ).loc main_arg9)) := keep3 m ρ c
  have e10 : V3 m ρ c main_arg10 = (m ((c : Thread nD τ).loc main_arg10)) := keep3 m ρ c
  rw [e19, e8, e9, e10] at e
  exact e

/-! ## The pair head -/

include layer0 layer1 in
/-- The rows of the second layer's features named by the pairs' first ends. -/
theorem entry2_h1 : V5 m ρ c main_v39 = Cert.Glue.gat (m ((c : Thread nD τ).loc main_arg3)) (H2 m c) := by
  show StableHlo.after hostOps2 (W4 m ρ c) (Proc.devRef .tc main_v39) = _
  dsimp only [hostOps2]
  after_results
  have e3 : W4 m ρ c (Proc.devRef .tc main_arg3) = (m ((c : Thread nD τ).loc main_arg3)) := keep4 m ρ c
  rw [e3, after_region1 m ρ c layer0 layer1]
  rfl

include layer0 layer1 in
/-- The rows named by the pairs' second ends. -/
theorem entry2_h2 : V5 m ρ c main_v46 = Cert.Glue.gat (m ((c : Thread nD τ).loc main_arg4)) (H2 m c) := by
  show StableHlo.after hostOps2 (W4 m ρ c) (Proc.devRef .tc main_v46) = _
  dsimp only [hostOps2]
  after_results
  have e4 : W4 m ρ c (Proc.devRef .tc main_arg4) = (m ((c : Thread nD τ).loc main_arg4)) := keep4 m ρ c
  rw [e4, after_region1 m ρ c layer0 layer1]
  rfl

/-- The three-block head of equal operands is the same head. -/
theorem headSplit_congr {h1 h1' h2 h2' : Cert.Spec.Mat 500000 64} {wa wa' wb wb' wc wc' : Cert.Spec.Mat 64 64}
    {c1 c1' : Cert.Spec.Row 64} {w2 w2' : Cert.Spec.Mat 64 2} {c2 c2' : Cert.Spec.Row 2}
    (e1 : h1 = h1') (e2 : h2 = h2') (ea : wa = wa') (eb : wb = wb') (ec : wc = wc') (ec1 : c1 = c1') (ew2 : w2 = w2')
    (ec2 : c2 = c2') :
    Cert.Spec.headSplit h1 h2 wa wb wc c1 w2 c2 = Cert.Spec.headSplit h1' h2' wa' wb' wc' c1' w2' c2' := by
  subst e1 e2 ea eb ec ec1 ew2 ec2; rfl

/-- Entry (k, j) of the row slice of W1 that starts at row `o` is entry (o + k, j) of W1. -/
theorem slice_apply (o : Nat) (ho : o + 64 ≤ 192) (h : S192x64.Slices ![o, 0] S64x64) (w : FVec Ideal S192x64 .f32)
    (k j : Fin 64) :
    extractStridedSlice S64x64 ![o, 0] w h (ix2 k j) = w (ix2 (⟨o + k.val, by omega⟩ : Fin 192) j) :=
  extractStridedSlice_apply ![o, 0] w h (ix2 k j) (ix2 (⟨o + k.val, by omega⟩ : Fin 192) j) (fun a => by
    match a with
    | ⟨0, _⟩ => rfl
    | ⟨1, _⟩ => show j.val = 0 + j.val; omega)

/-- The head's first bias as the third region finds it. -/
theorem entry2_c1 : V5 m ρ c main_arg12 = (m ((c : Thread nD τ).loc main_arg12)) := keep5 m ρ c

/-- The head's second weight matrix as the third region finds it. -/
theorem entry2_w2 : V5 m ρ c main_arg13 = (m ((c : Thread nD τ).loc main_arg13)) := keep5 m ρ c

/-- The head's second bias as the third region finds it. -/
theorem entry2_c2 : V5 m ρ c main_arg14 = (m ((c : Thread nD τ).loc main_arg14)) := keep5 m ρ c

/-- W1 as the third stretch finds it. -/
theorem w1_before2 : W4 m ρ c (Proc.devRef .tc main_arg11) = (m ((c : Thread nD τ).loc main_arg11)) := keep4 m ρ c

/-- The first 64 rows of W1, sliced by the third stretch. -/
theorem entry2_wa : V5 m ρ c main_v47
    = extractStridedSlice S64x64 ![0, 0] (m ((c : Thread nD τ).loc main_arg11)) slices_S192x64_S64x64_0_0 := by
  show StableHlo.after hostOps2 (W4 m ρ c) (Proc.devRef .tc main_v47) = _
  dsimp only [hostOps2]
  after_results
  rw [w1_before2 m ρ c]

/-- Rows 64 to 127 of W1. -/
theorem entry2_wb : V5 m ρ c main_v48
    = extractStridedSlice S64x64 ![64, 0] (m ((c : Thread nD τ).loc main_arg11)) slices_S192x64_S64x64_64_0 := by
  show StableHlo.after hostOps2 (W4 m ρ c) (Proc.devRef .tc main_v48) = _
  dsimp only [hostOps2]
  after_results
  rw [w1_before2 m ρ c]

/-- Rows 128 to 191 of W1. -/
theorem entry2_wc : V5 m ρ c main_v49
    = extractStridedSlice S64x64 ![128, 0] (m ((c : Thread nD τ).loc main_arg11)) slices_S192x64_S64x64_128_0 := by
  show StableHlo.after hostOps2 (W4 m ρ c) (Proc.devRef .tc main_v49) = _
  dsimp only [hostOps2]
  after_results
  rw [w1_before2 m ρ c]

/-- The three row slices are the thirds of W1's rows. -/
theorem thirds (w : FVec Ideal S192x64 .f32) :
    (∀ (k j : Fin 64), extractStridedSlice S64x64 ![0, 0] w slices_S192x64_S64x64_0_0 (ix2 k j) = w (ix2 (⟨k.val, by omega⟩ : Fin 192) j))
    ∧ (∀ (k j : Fin 64), extractStridedSlice S64x64 ![64, 0] w slices_S192x64_S64x64_64_0 (ix2 k j) = w (ix2 (⟨64 + k.val, by omega⟩ : Fin 192) j))
    ∧ (∀ (k j : Fin 64), extractStridedSlice S64x64 ![128, 0] w slices_S192x64_S64x64_128_0 (ix2 k j) = w (ix2 (⟨128 + k.val, by omega⟩ : Fin 192) j)) := by
  refine ⟨fun k j => ?_, fun k j => slice_apply 64 (by omega) slices_S192x64_S64x64_64_0 w k j,
    fun k j => slice_apply 128 (by omega) slices_S192x64_S64x64_128_0 w k j⟩
  have hk : (⟨0 + k.val, by omega⟩ : Fin 192) = ⟨k.val, by omega⟩ := Fin.ext (Nat.zero_add _)
  exact (slice_apply 0 (by omega) slices_S192x64_S64x64_0_0 w k j).trans (by rw [hk])

variable (head2 : ∀ (V : (c : Dev nD) → (b : Ref sig .tc) → Buf (Elt Ideal) ((c : Thread nD τ).loc b)) (c : Dev nD),
    (dat2 (F := Ideal) V c).arrAt 8 cfg2.N
      = Cert.Spec.headSplit (V c main_v39) (V c main_v46) (V c main_v47) (V c main_v48) (V c main_v49)
          (V c main_arg12) (V c main_arg13) (V c main_arg14))

include layer0 layer1 head2 in
/-- After the third region the result buffer holds the pair head of the gathered rows, in the three-block arrangement. -/
theorem result_split : W6 m ρ c (Proc.devRef .tc main_v50)
    = Cert.Spec.headSplit (Cert.Glue.gat (m ((c : Thread nD τ).loc main_arg3)) (H2 m c)) (Cert.Glue.gat (m ((c : Thread nD τ).loc main_arg4)) (H2 m c))
        (extractStridedSlice S64x64 ![0, 0] (m ((c : Thread nD τ).loc main_arg11)) slices_S192x64_S64x64_0_0)
        (extractStridedSlice S64x64 ![64, 0] (m ((c : Thread nD τ).loc main_arg11)) slices_S192x64_S64x64_64_0)
        (extractStridedSlice S64x64 ![128, 0] (m ((c : Thread nD τ).loc main_arg11)) slices_S192x64_S64x64_128_0)
        (m ((c : Thread nD τ).loc main_arg12)) (m ((c : Thread nD τ).loc main_arg13)) (m ((c : Thread nD τ).loc main_arg14)) :=
  ((W6_arr m ρ c 8).trans (head2 (V5 m ρ) c)).trans
    (headSplit_congr (entry2_h1 m ρ c layer0 layer1) (entry2_h2 m ρ c layer0 layer1) (entry2_wa m ρ c) (entry2_wb m ρ c)
      (entry2_wc m ρ c) (entry2_c1 m ρ c) (entry2_w2 m ρ c) (entry2_c2 m ρ c))

include layer0 layer1 head2 in
/-- The same in the concatenated arrangement, by the law between the two. -/
theorem result_head : W6 m ρ c (Proc.devRef .tc main_v50)
    = Cert.Spec.headCat (Cert.Glue.gat (m ((c : Thread nD τ).loc main_arg3)) (H2 m c)) (Cert.Glue.gat (m ((c : Thread nD τ).loc main_arg4)) (H2 m c)) (m ((c : Thread nD τ).loc main_arg11)) (m ((c : Thread nD τ).loc main_arg12)) (m ((c : Thread nD τ).loc main_arg13)) (m ((c : Thread nD τ).loc main_arg14)) :=
  (result_split m ρ c layer0 layer1 head2).trans
    (Cert.Spec.headCat_eq_headSplit _ _ (m ((c : Thread nD τ).loc main_arg11)) _ _ _ _ _ _ (thirds (m ((c : Thread nD τ).loc main_arg11))).1 (thirds (m ((c : Thread nD τ).loc main_arg11))).2.1
      (thirds (m ((c : Thread nD τ).loc main_arg11))).2.2).symm

include layer0 layer1 head2 in
/-- The kernel program's result is the network of its launch arguments. -/
theorem result_network : W6 m ρ c (Proc.devRef .tc main_v50)
    = Cert.Glue.network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  result_head m ρ c layer0 layer1 head2

end Cert.KernelIdeal.Thread

end
-- ==== Proof.RefValue.lean ====
/-
  The reference's result as the network of Spec.lean over the two host maps of Glue.lean.

  The reference is a chain of ninety host operations. Read at an index, a graph layer's stage is
  max ((Σ_k x[r,k]·Ws[k,j]) + (Σ_k nb[r,k]·Wn[k,j]) + b[j]) 0, which is Spec's layer entry; the neighbour mean and the
  two row gathers are the host maps of Glue.lean spelt with the same operations, so they stay closed; and the head's
  192-column contraction has as its left factor the join [h1 | h2 | |h1 − h2|], which read at column k is the first
  piece below 64, the second below 128 and the third from there on.
-/
import proofs.«120793_j14190571946097_1_alg».proof.Proof.Gen.ReferenceIdeal.Run
import proofs.«120793_j14190571946097_1_alg».proof.Proof.Gen.ReferenceIdeal.Read
import proofs.«120793_j14190571946097_1_alg».proof.Proof.Spec
import proofs.«120793_j14190571946097_1_alg».proof.Proof.Glue

set_option maxRecDepth 16384

noncomputable section

open scoped BigOperators

namespace Cert.RefValue

open Idealize.ShloMosaic Idealize.ShloMosaic.TcCoe Idealize.ShloMosaic.ValueIdx Idealize.SL.Sem Cert.ReferenceIdeal Cert.ReferenceIdeal.Gen
open Cert.ReferenceIdeal.Read

/-! ## Index equations: the composed index functions of the stages, at a pair of coordinates -/

theorem lidx_layer (r : Fin 100000) (j k : Fin 64) : lidx_main_v19 (ix2 r j) k = ix2 r k :=
  funext fun a => Fin.ext (by match a with | ⟨0, _⟩ => rfl | ⟨1, _⟩ => rfl)

theorem ridx_layer (r : Fin 100000) (j k : Fin 64) : ridx_main_v19 (ix2 r j) k = ix2 k j :=
  funext fun a => Fin.ext (by match a with | ⟨0, _⟩ => rfl | ⟨1, _⟩ => rfl)

theorem idx_layer_bias (r : Fin 100000) (j : Fin 64) : idx_main_v22 (idx_main_v23 (ix2 r j)) = ix1 j :=
  funext fun a => Fin.ext (by match a with | ⟨0, _⟩ => rfl)

theorem lidx_hid (p : Fin 500000) (j : Fin 64) (k : Fin 192) : lidx_main_v62 (ix2 p j) k = ix2 p k :=
  funext fun a => Fin.ext (by match a with | ⟨0, _⟩ => rfl | ⟨1, _⟩ => rfl)

theorem ridx_hid (p : Fin 500000) (j : Fin 64) (k : Fin 192) : ridx_main_v62 (ix2 p j) k = ix2 k j :=
  funext fun a => Fin.ext (by match a with | ⟨0, _⟩ => rfl | ⟨1, _⟩ => rfl)

theorem idx_hid_bias (p : Fin 500000) (j : Fin 64) : idx_main_v63 (idx_main_v64 (ix2 p j)) = ix1 j :=
  funext fun a => Fin.ext (by match a with | ⟨0, _⟩ => rfl)

theorem lidx_out (p : Fin 500000) (c : Fin 2) (j : Fin 64) : lidx_main_v67 (ix2 p c) j = ix2 p j :=
  funext fun a => Fin.ext (by match a with | ⟨0, _⟩ => rfl | ⟨1, _⟩ => rfl)

theorem ridx_out (p : Fin 500000) (c : Fin 2) (j : Fin 64) : ridx_main_v67 (ix2 p c) j = ix2 j c :=
  funext fun a => Fin.ext (by match a with | ⟨0, _⟩ => rfl | ⟨1, _⟩ => rfl)

theorem idx_out_bias (p : Fin 500000) (c : Fin 2) : idx_main_v68 (idx_main_v69 (ix2 p c)) = ix1 c :=
  funext fun a => Fin.ext (by match a with | ⟨0, _⟩ => rfl)

/-! ## One graph layer, over any feature matrix and any neighbour matrix -/

/-- The layer as the reference spells it: two contractions over the 64 columns, their sum, the bias broadcast
    along the rows, and the maximum with a zero matrix. -/
def layer (x nb : FVec Ideal S100000x64 .f32) (ws wn : FVec Ideal S64x64 .f32) (b : FVec Ideal S64 .f32) :
    FVec Ideal S100000x64 .f32 :=
  maximumf (addf (addf (val_main_v19 (F := Ideal) x ws) (val_main_v19 (F := Ideal) nb wn)) (val_main_v23 (F := Ideal) b))
    (val_main_call0_v0 (F := Ideal))

/-- Entry (r, j) of the layer is max ((Σ_k x[r,k]·Ws[k,j]) + (Σ_k nb[r,k]·Wn[k,j]) + b[j]) 0. -/
theorem layer_eq (x nb : FVec Ideal S100000x64 .f32) (ws wn : FVec Ideal S64x64 .f32) (b : FVec Ideal S64 .f32) :
    layer x nb ws wn b = Cert.Spec.sage x nb ws wn b := by
  funext i
  obtain ⟨r, j, rfl⟩ : ∃ (r : Fin 100000) (j : Fin 64), i = ix2 r j := ⟨i 0, i 1, eq_ix2 i⟩
  rw [Cert.Spec.sage_apply]
  unfold layer Cert.Spec.sageAt
  rw [maximumf_apply, addf_apply, addf_apply, val_main_v19_apply, val_main_v19_apply, val_main_v23_apply, val_main_v22_apply,
    val_main_call0_v0_apply, val_main_call0_cst_apply]
  simp only [lidx_layer, ridx_layer, idx_layer_bias, Ideal.ofBits_def, Ideal.ofBits_zero_f32]

variable (x0 : (⟨S100000x64, .f32⟩ : BufTy).Contents (Elt Ideal)) (x1 x2 : (⟨S1600000, .i32⟩ : BufTy).Contents (Elt Ideal))
  (x3 x4 : (⟨S500000, .i32⟩ : BufTy).Contents (Elt Ideal)) (x5 x6 : (⟨S64x64, .f32⟩ : BufTy).Contents (Elt Ideal))
  (x7 : (⟨S64, .f32⟩ : BufTy).Contents (Elt Ideal)) (x8 x9 : (⟨S64x64, .f32⟩ : BufTy).Contents (Elt Ideal))
  (x10 : (⟨S64, .f32⟩ : BufTy).Contents (Elt Ideal)) (x11 : (⟨S192x64, .f32⟩ : BufTy).Contents (Elt Ideal))
  (x12 : (⟨S64, .f32⟩ : BufTy).Contents (Elt Ideal)) (x13 : (⟨S64x2, .f32⟩ : BufTy).Contents (Elt Ideal))
  (x14 : (⟨S2, .f32⟩ : BufTy).Contents (Elt Ideal))

/-- The first layer's stage is the layer over the input features and their neighbour means. -/
theorem v25_eq : val_main_v25 (F := Ideal) x0 x1 x2 x5 x6 x7 = Cert.Spec.sage x0 (val_main_v18 (F := Ideal) x0 x1 x2) x5 x6 x7 :=
  layer_eq x0 (val_main_v18 (F := Ideal) x0 x1 x2) x5 x6 x7

/-- The second layer's stage is the same layer over the first layer's output and its neighbour means. -/
theorem v44_eq : val_main_v44 (F := Ideal) x0 x1 x2 x5 x6 x7 x8 x9 x10
    = Cert.Spec.sage (val_main_v25 (F := Ideal) x0 x1 x2 x5 x6 x7) (val_main_v37 (F := Ideal) x0 x1 x2 x5 x6 x7) x8 x9 x10 :=
  layer_eq (val_main_v25 (F := Ideal) x0 x1 x2 x5 x6 x7) (val_main_v37 (F := Ideal) x0 x1 x2 x5 x6 x7) x8 x9 x10

/-! ## The host maps: the same operations on the same operands -/

theorem v18_eq : val_main_v18 (F := Ideal) x0 x1 x2 = Cert.Glue.nbr x1 x2 x0 := rfl

theorem v37_eq : val_main_v37 (F := Ideal) x0 x1 x2 x5 x6 x7
    = Cert.Glue.nbr x1 x2 (val_main_v25 (F := Ideal) x0 x1 x2 x5 x6 x7) := rfl

theorem v51_eq : val_main_v51 (F := Ideal) x0 x1 x2 x3 x5 x6 x7 x8 x9 x10
    = Cert.Glue.gat x3 (val_main_v44 (F := Ideal) x0 x1 x2 x5 x6 x7 x8 x9 x10) := rfl

theorem v58_eq : val_main_v58 (F := Ideal) x0 x1 x2 x4 x5 x6 x7 x8 x9 x10
    = Cert.Glue.gat x4 (val_main_v44 (F := Ideal) x0 x1 x2 x5 x6 x7 x8 x9 x10) := rfl

/-! ## The head -/

/-- Three 64-column pieces joined along the columns, read at column k: the piece whose span holds k, at k less
    the columns before it. -/
theorem cat3_apply (h1 h2 h3 : (⟨S500000x64, .f32⟩ : BufTy).Contents (Elt Ideal)) (p : Fin 500000) (k : Fin 192) :
    concatenate S500000x192 1 [⟨S500000x64, h1⟩, ⟨S500000x64, h2⟩, ⟨S500000x64, h3⟩]
        concatenates_S500000x64_S500000x64_S500000x64_S500000x192_d1 (ix2 p k)
      = if h : k.val < 64 then h1 (ix2 p ⟨k.val, h⟩)
        else if h' : k.val < 128 then h2 (ix2 p ⟨k.val - 64, by omega⟩)
        else h3 (ix2 p ⟨k.val - 128, by omega⟩) := by
  split
  · next h =>
    exact concatenate_apply_piece (1 : Fin S500000x192.rank) _ _ (ix2 p k) 0 (by show (0 : Nat) < 3; omega) S500000x64 h1 rfl rfl 0 rfl
      (ix2 p ⟨k.val, h⟩) (fun b hb => by match b with | ⟨0, _⟩ => rfl | ⟨1, _⟩ => exact absurd rfl hb)
      (by show 0 + k.val = k.val; omega)
  · next h =>
    split
    · next h' =>
      exact concatenate_apply_piece (1 : Fin S500000x192.rank) _ _ (ix2 p k) 1 (by show (1 : Nat) < 3; omega) S500000x64 h2 rfl rfl 64 rfl
        (ix2 p ⟨k.val - 64, by omega⟩) (fun b hb => by match b with | ⟨0, _⟩ => rfl | ⟨1, _⟩ => exact absurd rfl hb)
        (by show 64 + (k.val - 64) = k.val; omega)
    · next h' =>
      exact concatenate_apply_piece (1 : Fin S500000x192.rank) _ _ (ix2 p k) 2 (by show (2 : Nat) < 3; omega) S500000x64 h3 rfl rfl 128 rfl
        (ix2 p ⟨k.val - 128, by omega⟩) (fun b hb => by match b with | ⟨0, _⟩ => rfl | ⟨1, _⟩ => exact absurd rfl hb)
        (by show 128 + (k.val - 128) = k.val; omega)

/-- Column k of the joined stage is column k of [h1 | h2 | |h1 − h2|]. -/
theorem cat_eq (p : Fin 500000) (k : Fin 192) :
    val_main_v61 (F := Ideal) x0 x1 x2 x3 x4 x5 x6 x7 x8 x9 x10 (ix2 p k)
      = Cert.Spec.catAt (val_main_v51 (F := Ideal) x0 x1 x2 x3 x5 x6 x7 x8 x9 x10)
          (val_main_v58 (F := Ideal) x0 x1 x2 x4 x5 x6 x7 x8 x9 x10) p k := by
  unfold val_main_v61 Cert.Spec.catAt
  rw [cat3_apply]
  split
  · rfl
  · split
    · rfl
    · rw [val_main_v60_apply, val_main_v59_apply]
      rfl

/-- Hidden unit (p, j) of the reference is the concatenated hidden unit. -/
theorem hid_eq (p : Fin 500000) (j : Fin 64) :
    val_main_v66 (F := Ideal) x0 x1 x2 x3 x4 x5 x6 x7 x8 x9 x10 x11 x12 (ix2 p j)
      = Cert.Spec.hidCatAt (val_main_v51 (F := Ideal) x0 x1 x2 x3 x5 x6 x7 x8 x9 x10)
          (val_main_v58 (F := Ideal) x0 x1 x2 x4 x5 x6 x7 x8 x9 x10) x11 x12 p j := by
  rw [val_main_v66_apply, val_main_v65_apply, val_main_v62_apply, val_main_v64_apply, val_main_v63_apply,
    val_main_call2_v0_apply, val_main_call2_cst_apply]
  unfold Cert.Spec.hidCatAt
  simp only [lidx_hid, ridx_hid, idx_hid_bias, cat_eq, Ideal.ofBits_def, Ideal.ofBits_zero_f32, Ideal.addf_def, Ideal.maximumf_def]

/-- The reference's last stage is the head over the two gathered matrices. -/
theorem head_eq : val_main_v70 (F := Ideal) x0 x1 x2 x3 x4 x5 x6 x7 x8 x9 x10 x11 x12 x13 x14
    = Cert.Spec.headCat (val_main_v51 (F := Ideal) x0 x1 x2 x3 x5 x6 x7 x8 x9 x10)
        (val_main_v58 (F := Ideal) x0 x1 x2 x4 x5 x6 x7 x8 x9 x10) x11 x12 x13 x14 := by
  funext i
  obtain ⟨p, c, rfl⟩ : ∃ (p : Fin 500000) (c : Fin 2), i = ix2 p c := ⟨i 0, i 1, eq_ix2 i⟩
  rw [Cert.Spec.headCat_apply, val_main_v70_apply, val_main_v67_apply, val_main_v69_apply, val_main_v68_apply]
  unfold Cert.Spec.outAt
  simp only [lidx_out, ridx_out, idx_out_bias, hid_eq, Ideal.addf_def]

/-! ## The whole reference -/

theorem ref_eq : val_main_v70 (F := Ideal) x0 x1 x2 x3 x4 x5 x6 x7 x8 x9 x10 x11 x12 x13 x14
    = Cert.Glue.network x0 x1 x2 x3 x4 x5 x6 x7 x8 x9 x10 x11 x12 x13 x14 := by
  rw [head_eq, v51_eq, v58_eq, v44_eq, v37_eq, v25_eq, v18_eq]
  rfl

theorem result_eq (m : (ℓ : Loc nD τ sig) → Buf (Elt Ideal) ℓ) (c : Dev nD) :
    Cert.ReferenceIdeal.Value.res_main_v70 (F := Ideal) m c
      = Cert.Glue.network (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) (m ((c.tc : Thread nD τ).loc main_arg13)) (m ((c.tc : Thread nD τ).loc main_arg14)) := by
  rw [val_main_v70_eq]
  exact ref_eq _ _ _ _ _ _ _ _ _ _ _ _ _ _ _

end Cert.RefValue

end
-- ==== Proof.lean ====
/-
  The certificate of the GraphSAGE kernel against its reference.

  Both idealized programs compute, at the extended reals, two graph layers relu (x · Ws + nb · Wn + b), each over the
  neighbour mean nb of its own input, and then the pair head relu ([h1 | h2 | |h1 − h2|] · W1 + c1) · W2 + c2 on rows
  gathered from the second layer. They apply the same host maps (gather along the edges, sum into the destinations,
  divide by the clamped in-degree; gather by the pairs) and differ in one place: the kernel contracts the 192 columns of
  the head's first product as three 64-column products against the three row blocks of W1 and adds them, where the
  reference contracts the concatenation at once. A sum over 192 indices is the sum of its three thirds, so the two
  results are the same function of the arguments (Spec.lean, Glue.lean): the kernel's result buffer is read back through
  its three regions and three host stretches (Thread.lean over the three region lemmas), the reference's composed term
  stage by stage (RefValue.lean). The three frames are the programs' runs with the results dropped; the ideal pass
  rewrote nothing, so the idealization claim is trivial.
-/
import proofs.«120793_j14190571946097_1_alg».proof.Defs
import proofs.«120793_j14190571946097_1_alg».proof.Proof.Gen.Kernel
import proofs.«120793_j14190571946097_1_alg».proof.Proof.KernelFrame
import proofs.«120793_j14190571946097_1_alg».proof.Proof.Gen.KernelIdeal
import proofs.«120793_j14190571946097_1_alg».proof.Proof.KernelIdealFrame
import proofs.«120793_j14190571946097_1_alg».proof.Proof.KernelIdealRun
import proofs.«120793_j14190571946097_1_alg».proof.Proof.Gen.ReferenceIdeal
import proofs.«120793_j14190571946097_1_alg».proof.Proof.Gen.ReferenceIdeal.Run
import proofs.«120793_j14190571946097_1_alg».proof.Proof.Gen.Pre_finite_inputs
import proofs.«120793_j14190571946097_1_alg».proof.Proof.Spec
import proofs.«120793_j14190571946097_1_alg».proof.Proof.Glue
import proofs.«120793_j14190571946097_1_alg».proof.Proof.Layer0Value
import proofs.«120793_j14190571946097_1_alg».proof.Proof.Layer1Value
import proofs.«120793_j14190571946097_1_alg».proof.Proof.HeadValue
import proofs.«120793_j14190571946097_1_alg».proof.Proof.Thread
import proofs.«120793_j14190571946097_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments alone. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the network of the arguments in their result buffers. -/
theorem algebraic : Cert.algebraic_KernelIdeal_ReferenceIdeal := by
  intro m ρ m' ρ' _ hagree
  refine ⟨fun c => Cert.Glue.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KernelIdeal.Thread.result_network m ρ c
          Cert.KernelIdeal.Layer0.arr_final Cert.KernelIdeal.Layer1.arr_final Cert.KernelIdeal.Head.arr_final), (h c).2⟩)
      (Cert.KernelIdeal.Gen.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14⟩ := hagree c
    rw [Cert.RefValue.result_eq m' c, h0, h1, h2, h3, h4, h5, h6, h7, h8, h9, h10, h11, h12, h13, h14]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
